-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S32x6 : Shape := ⟨2, ![32, 6]⟩
abbrev S32 : Shape := ⟨1, ![32]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel
  bcast_S_S32x6 : S_.BroadcastsInDim S32x6 (![] : Fin 0 → Fin S32x6.rank)
  reducesTo_S32x6_S_d0_1 : S32x6.ReducesTo [0, 1] S_

variable [Facts]

def fn {F : FTy → Type} [FloatOps F] (main_arg0 : FVec F S32x2048x3 .f32) (main_arg1 : FVec F S32x2048x3 .f32) (main_arg2 : FVec F S32x6 .f32) (main_arg3 : IVec S32 32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x2048x3 .f32 := Host.absf main_arg1
  let main_cst_0 : FVec F S_ .f32 := constant S_ .f32 0x7F800000#32
  let main_v5 : FVec F S32x2048x3 .f32 := broadcastInDim S32x2048x3 ![] bcast_S_S32x2048x3 main_cst_0
  let main_v6 : IVec S32x2048x3 1 := cmpf .olt main_v4 main_v5
  let main_c_1 : IVec S_ 1 := constantI S_ 1 1#1
  let main_v7 : IVec S_ 1 := (fun x v => Host.reduce IntOp.andi x v reducesTo_S32x2048x3_S_d0_1_2 h_S_) main_v6 main_c_1
  let main_v8 : IVec S_ 1 := andi main_v3 main_v7
  let main_v9 : FVec F S32x6 .f32 := Host.absf main_arg2
  let main_cst_2 : FVec F S_ .f32 := constant S_ .f32 0x7F800000#32
  let main_v10 : FVec F S32x6 .f32 := broadcastInDim S32x6 ![] bcast_S_S32x6 main_cst_2
  let main_v11 : IVec S32x6 1 := cmpf .olt main_v9 main_v10
  let main_c_3 : IVec S_ 1 := constantI S_ 1 1#1
  let main_v12 : IVec S_ 1 := (fun x v => Host.reduce IntOp.andi x v reducesTo_S32x6_S_d0_1 h_S_) main_v11 main_c_3
  let main_v13 : IVec S_ 1 := andi main_v8 main_v12
  main_v13
-- ==== Kernel.lean ====
abbrev S32x2048x3 : Shape := ⟨3, ![32, 2048, 3]⟩
abbrev S32x6 : Shape := ⟨2, ![32, 6]⟩
abbrev S32 : Shape := ⟨1, ![32]⟩
abbrev S32x3x2048 : Shape := ⟨3, ![32, 3, 2048]⟩
abbrev S32x2048x1 : Shape := ⟨3, ![32, 2048, 1]⟩
abbrev S32x1x2048 : Shape := ⟨3, ![32, 1, 2048]⟩
abbrev S1x256x3 : Shape := ⟨3, ![1, 256, 3]⟩
abbrev S1x3x2048 : Shape := ⟨3, ![1, 3, 2048]⟩
abbrev S1x256x1 : Shape := ⟨3, ![1, 256, 1]⟩
abbrev S1x1x2048 : Shape := ⟨3, ![1, 1, 2048]⟩
abbrev S1x2048 : Shape := ⟨2, ![1, 2048]⟩
abbrev S256x3 : Shape := ⟨2, ![256, 3]⟩
abbrev S3x2048 : Shape := ⟨2, ![3, 2048]⟩
abbrev S256 : Shape := ⟨1, ![256]⟩
abbrev S256x1 : Shape := ⟨2, ![256, 1]⟩
abbrev S2048 : Shape := ⟨1, ![2048]⟩
abbrev S256x2048 : Shape := ⟨2, ![256, 2048]⟩
abbrev S32x2048 : Shape := ⟨2, ![32, 2048]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 67
  | .vmem => 9
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x6, .f32⟩
  | .hbm, ⟨3, _⟩ => ⟨S32, .i32⟩
  | .hbm, ⟨4, _⟩ => ⟨S32x3x2048, .f32⟩
  | .hbm, ⟨5, _⟩ => ⟨S32x2048x1, .f32⟩
  | .hbm, ⟨6, _⟩ => ⟨S32x1x2048, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S32x6, .f32⟩
  | .hbm, ⟨25, _⟩ => ⟨S32x6, .f32⟩
  | .hbm, ⟨26, _⟩ => ⟨S32x6, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S32x1, .f32⟩
  | .hbm, ⟨31, _⟩ => ⟨S32x6, .f32⟩
  | .hbm, ⟨32, _⟩ => ⟨S32x6, .f32⟩
  | .hbm, ⟨33, _⟩ => ⟨S32x1, .i32⟩
  | .hbm, ⟨34, _⟩ => ⟨S_, .i32⟩
  | .hbm, ⟨35, _⟩ => ⟨S32x1, .i32⟩
  | .hbm, ⟨36, _⟩ => ⟨S32x1, .i1⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S32x1, .i32⟩
  | .hbm, ⟨41, _⟩ => ⟨S32x1x1, .i32⟩
  | .hbm, ⟨42, _⟩ => ⟨S1, .i32⟩
  | .hbm, ⟨43, _⟩ => ⟨S_, .i32⟩
  | .hbm, ⟨44, _⟩ => ⟨S32x1x1, .i32⟩
  | .hbm, ⟨45, _⟩ => ⟨S32x1x1, .i1⟩
  | .hbm, ⟨46, _⟩ => ⟨S1x1x1, .i32⟩
  | .hbm, ⟨47, _⟩ => ⟨S32x1x1, .i32⟩
  | .hbm, ⟨48, _⟩ => ⟨S32x1x1, .i1⟩
  | .hbm, ⟨49, _⟩ => ⟨S32x1x1, .i1⟩
  | .hbm, ⟨50, _⟩ => ⟨S_, .i1⟩
  | .hbm, ⟨51, _⟩ => ⟨S32x1, .i1⟩
  | .hbm, ⟨52, _⟩ => ⟨S32x1, .f32⟩
  | .hbm, ⟨53, _⟩ => ⟨S_, .f32⟩
  | .hbm, ⟨54, _⟩ => ⟨S32x1, .f32⟩
  | .hbm, ⟨55, _⟩ => ⟨S32x1, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x1, .f32⟩
  | .local _ .vmem, ⟨5, _⟩ => ⟨S1x256x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v9 : Ref sig .tc := ⟨.hbm, 32, rfl⟩
abbrev main_v10 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_cst_4 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_cst_6 : Ref sig .tc := ⟨.hbm, 64, rfl⟩
abbrev main_v17 : Ref sig .tc := ⟨.hbm, 65, rfl⟩
abbrev main_v18 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_16 : BitVec 32 := 0#32
  let v34 : BitVec 1 := Scalar.cmpi .ne v33 c0_i32_16
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S32x2048x3_S32x3x2048_0_2_1 : S32x2048x3.Transposes [0, 2, 1] S32x3x2048
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S256x3_S256 : S256x3.Reduces [1] S256
  shapeCasts_S256_S256x1 : S256.ShapeCasts S256x1
  reduces_S3x2048_S2048 : S3x2048.Reduces [0] S2048
  shapeCasts_S2048_S1x2048 : S2048.ShapeCasts S1x2048
  bitsLt_bf16_f32 : FTy.bits .bf16 < FTy.bits .f32
  broadcasts_S256x1_S256x2048 : S256x1.Broadcasts S256x2048
  broadcasts_S1x2048_S256x2048 : S1x2048.Broadcasts S256x2048
  reduces_S256x2048_S256 : S256x2048.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x2048_S2048 : S256x2048.Reduces [0] S2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S32x2048x1_S32x2048 : S32x2048x1.ShapeCasts S32x2048
  shapeCasts_S32x1x2048_S32x2048 : S32x1x2048.ShapeCasts S32x2048
  reducesTo_S32x2048_S_d0_1 : S32x2048.ReducesTo [0, 1] S_
  h_S_ : 0 < S_.numel
  reducesTo_S32x6_S32_d1 : S32x6.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  shapeCasts_S32x1_S32 : S32x1.ShapeCasts S32
  reducesTo_S32_S_d0 : S32.ReducesTo [0] S_
  dot_S256x3_S3x2048_S256x2048_1_0_0_1_n_n_wf : DotDims.WF S256x3 S3x2048 S256x2048 [1] [0] [0] [1] [] []
  gather_S32x6_S32x1x1_S32x1_n_1_0_0_1_2_11_wf : GatherDims.WF S32x6 S32x1x1 S32x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S32x2048x3.size a
  hwx0_0 : ∀ i : grid0.Coords, EltTy.bits .f32 = 32 ∨ (Rect.block (s := S32x2048x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S32x3x2048.size a
  hwx0_1 : ∀ i : grid0.Coords, EltTy.bits .f32 = 32 ∨ (Rect.block (s := S32x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S32x2048x1.size a
  hwx0_2 : ∀ i : grid0.Coords, EltTy.bits .f32 = 32 ∨ (Rect.block (s := S32x2048x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x2048.size a
  hwx0_3 : ∀ i : grid0.Coords, EltTy.bits .f32 = 32 ∨ (Rect.block (s := S32x1x2048) S1x1x2048.size (cc0_transform_3 i) (hinb0_3 i)).WholeWords (EltTy.packing .f32)

variable [Facts₀]

def dot_S256x3_S3x2048_S256x2048_1_0_0_1_n_n : DotDims S256x3 S3x2048 S256x2048 where
  lhsContracting := [1]
  rhsContracting := [0]
  lhsNonContracting := [0]
  rhsNonContracting := [1]
  lhsBatch := []
  rhsBatch := []
  wf := dot_S256x3_S3x2048_S256x2048_1_0_0_1_n_n_wf
def gather_S32x6_S32x1x1_S32x1_n_1_0_0_1_2_11 : GatherDims S32x6 S32x1x1 S32x1 where
  offsetDims := []
  collapsedSliceDims := [1]
  operandBatchingDims := [0]
  startIndicesBatchingDims := [0]
  startIndexMap := [1]
  indexVectorDim := 2
  sliceSizes := ![1, 1]
  wf := gather_S32x6_S32x1x1_S32x1_n_1_0_0_1_2_11_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S32x2048x3 : Shape := ⟨3, ![32, 2048, 3]⟩
abbrev S32x6 : Shape := ⟨2, ![32, 6]⟩
abbrev S32 : Shape := ⟨1, ![32]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x6, .f32⟩
  | .hbm, ⟨3, _⟩ => ⟨S32, .i32⟩
  | .hbm, ⟨4, _⟩ => ⟨S32x2048x3, .f32⟩
  | .hbm, ⟨5, _⟩ => ⟨S_, .f32⟩
  | .hbm, ⟨6, _⟩ => ⟨S32x2048, .f32⟩
  | .hbm, ⟨7, _⟩ => ⟨S32x2048x3, .f32⟩
  | .hbm, ⟨8, _⟩ => ⟨S_, .f32⟩
  | .hbm, ⟨9, _⟩ => ⟨S32x2048, .f32⟩
  | .hbm, ⟨10, _⟩ => ⟨S32x2048x2048, .f32⟩
  | .hbm, ⟨11, _⟩ => ⟨S32x2048x1, .f32⟩
  | .hbm, ⟨12, _⟩ => ⟨S32x1x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048x2048, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32x1, .f32⟩
  | .hbm, ⟨39, _⟩ => ⟨S32x6, .f32⟩
  | .hbm, ⟨40, _⟩ => ⟨S32x6, .f32⟩
  | .hbm, ⟨41, _⟩ => ⟨S32x6, .f32⟩
  | .hbm, ⟨42, _⟩ => ⟨S_, .f32⟩
  | .hbm, ⟨43, _⟩ => ⟨S32, .f32⟩
  | .hbm, ⟨44, _⟩ => ⟨S32x1, .f32⟩
  | .hbm, ⟨45, _⟩ => ⟨S32x1, .f32⟩
  | .hbm, ⟨46, _⟩ => ⟨S32x6, .f32⟩
  | .hbm, ⟨47, _⟩ => ⟨S32x6, .f32⟩
  | .hbm, ⟨48, _⟩ => ⟨S32x1, .i32⟩
  | .hbm, ⟨49, _⟩ => ⟨S_, .i32⟩
  | .hbm, ⟨50, _⟩ => ⟨S32x1, .i32⟩
  | .hbm, ⟨51, _⟩ => ⟨S32x1, .i1⟩
  | .hbm, ⟨52, _⟩ => ⟨S_, .i32⟩
  | .hbm, ⟨53, _⟩ => ⟨S32x1, .i32⟩
  | .hbm, ⟨54, _⟩ => ⟨S32x1, .i32⟩
  | .hbm, ⟨55, _⟩ => ⟨S32x1, .i32⟩
  | .hbm, ⟨56, _⟩ => ⟨S32x1x1, .i32⟩
  | .hbm, ⟨57, _⟩ => ⟨S1, .i32⟩
  | .hbm, ⟨58, _⟩ => ⟨S_, .i32⟩
  | .hbm, ⟨59, _⟩ => ⟨S32x1x1, .i32⟩
  | .hbm, ⟨60, _⟩ => ⟨S32x1x1, .i1⟩
  | .hbm, ⟨61, _⟩ => ⟨S1x1x1, .i32⟩
  | .hbm, ⟨62, _⟩ => ⟨S32x1x1, .i32⟩
  | .hbm, ⟨63, _⟩ => ⟨S32x1x1, .i1⟩
  | .hbm, ⟨64, _⟩ => ⟨S32x1x1, .i1⟩
  | .hbm, ⟨65, _⟩ => ⟨S_, .i1⟩
  | .hbm, ⟨66, _⟩ => ⟨S32x1, .i1⟩
  | .hbm, ⟨67, _⟩ => ⟨S32x1, .f32⟩
  | .hbm, ⟨68, _⟩ => ⟨S_, .f32⟩
  | .hbm, ⟨69, _⟩ => ⟨S32x1, .f32⟩
  | .hbm, ⟨70, _⟩ => ⟨S32x1, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v20 : Ref sig .tc := ⟨.hbm, 47, rfl⟩
abbrev main_v21 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_8 : Ref sig .tc := ⟨.hbm, 73, rfl⟩
abbrev main_v25 : Ref sig .tc := ⟨.hbm, 74, rfl⟩
abbrev main_cst_9 : Ref sig .tc := ⟨.hbm, 75, rfl⟩
abbrev main_v26 : Ref sig .tc := ⟨.hbm, 76, rfl⟩
abbrev main_cst_10 : Ref sig .tc := ⟨.hbm, 77, rfl⟩
abbrev main_v27 : Ref sig .tc := ⟨.hbm, 78, rfl⟩
abbrev main_cst_11 : Ref sig .tc := ⟨.hbm, 79, rfl⟩
abbrev main_v28 : Ref sig .tc := ⟨.hbm, 80, rfl⟩
abbrev main_v29 : Ref sig .tc := ⟨.hbm, 81, rfl⟩

abbrev nD : Nat := 1
abbrev τ : Topo := Topo.v7x

variable {F : FTy → Type} [FloatOps F]

class Facts₀ : Prop where
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  reducesTo_S32x2048x2048_S32x2048_d1 : S32x2048x2048.ReducesTo [1] S32x2048
  reducesTo_S32x2048_S_d0_1 : S32x2048.ReducesTo [0, 1] S_
  reducesTo_S32x6_S32_d1 : S32x6.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  shapeCasts_S32x1_S32 : S32x1.ShapeCasts S32
  reducesTo_S32_S_d0 : S32.ReducesTo [0] S_
  dot_S32x2048x3_S32x2048x3_S32x2048x2048_2_2_1_1_0_0_wf : DotDims.WF S32x2048x3 S32x2048x3 S32x2048x2048 [2] [2] [1] [1] [0] [0]
  gather_S32x6_S32x1x1_S32x1_n_1_0_0_1_2_11_wf : GatherDims.WF S32x6 S32x1x1 S32x1 [] [1] [0] [1] [0] 2 ![1, 1]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf
def gather_S32x6_S32x1x1_S32x1_n_1_0_0_1_2_11 : GatherDims S32x6 S32x1x1 S32x1 where
  offsetDims := []
  collapsedSliceDims := [1]
  operandBatchingDims := [0]
  startIndicesBatchingDims := [0]
  startIndexMap := [1]
  indexVectorDim := 2
  sliceSizes := ![1, 1]
  wf := gather_S32x6_S32x1x1_S32x1_n_1_0_0_1_2_11_wf

class Facts : Prop extends Facts₀ where

variable [Facts]
-- ==== Proof.K.Setup.lean ====
/-
  The kernel walks a grid of 32 batches by 8 row tiles. At each point it forms the 256 × 2048 tile of squared
  distances between 256 points of the first cloud and all 2048 points of the second, writes the row minima of
  the tile, and folds the column minima into a running minimum kept in a scratch row across the 8 tiles of a
  batch: the scratch is reset on the first tile, lowered on each later tile, and copied out on the last one.
  This module names the three tile conditions the body branches on and decides each over the 256 grid points
  (first tile: point ≡ 0 mod 8; later tile: point ≢ 0 mod 8; last tile: point ≡ 7 mod 8), says where the
  column-minimum window is idle, names the staging buffers of a point, and restates the region invariant as
  "the scratch row holds something".
-/
import proofs.«143655_j62749472194941_1_alg».proof.Proof.Gen.Kernel.Skeleton
import proofs.«143655_j62749472194941_1_alg».proof.Proof.Gen.Kernel.Frame

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tile conditions -/

/-- The row-tile coordinate is 0: the scratch row is reset to this tile's column minima. -/
abbrev firstTile (i : grid0.Coords) : Prop :=
  (Scalar.cmpi .ne (Scalar.extui (Scalar.cmpi .eq (BitVec.ofNat 32 (i 1).val) 0#32)) 0#32) = 1#1
/-- The row-tile coordinate is not 0: the scratch row is lowered by this tile's column minima. -/
abbrev laterTile (i : grid0.Coords) : Prop :=
  (Scalar.cmpi .ne (Scalar.extui (Scalar.cmpi .ne (BitVec.ofNat 32 (i 1).val) 0#32)) 0#32) = 1#1
/-- The row-tile coordinate is 7: the scratch row is copied to the column-minimum window. -/
abbrev lastTile (i : grid0.Coords) : Prop := k0_cond3 i = 1#1

/-- Point t is a first tile exactly when t ≡ 0 (mod 8): the row tile is the point's remainder by 8. -/
theorem firstTile_iff : ∀ t : Fin cfg0.N, firstTile (grid0.coords t) ↔ t.val % 8 = 0 :=
  (by decide +kernel : ∀ t : Fin grid0.N, firstTile (grid0.coords t) ↔ t.val % 8 = 0)
/-- Point t is a later tile exactly when t ≢ 0 (mod 8). -/
theorem laterTile_iff : ∀ t : Fin cfg0.N, laterTile (grid0.coords t) ↔ ¬ t.val % 8 = 0 :=
  (by decide +kernel : ∀ t : Fin grid0.N, laterTile (grid0.coords t) ↔ ¬ t.val % 8 = 0)
/-- Point t is a last tile exactly when t ≡ 7 (mod 8). -/
theorem lastTile_iff : ∀ t : Fin cfg0.N, lastTile (grid0.coords t) ↔ t.val % 8 = 7 :=
  (by decide +kernel : ∀ t : Fin grid0.N, lastTile (grid0.coords t) ↔ t.val % 8 = 7)

/-! ## Where the windows are idle -/

/-- The two input windows and the row-minimum window are stored or read at every point. -/
theorem live_a : ∀ t : Fin cfg0.N, cfg0.idle 0 (grid0.coords t) = false := by decide +kernel
theorem live_b : ∀ t : Fin cfg0.N, cfg0.idle 1 (grid0.coords t) = false := by decide +kernel
theorem live_row : ∀ t : Fin cfg0.N, cfg0.idle 2 (grid0.coords t) = false := by decide +kernel
/-- Off the last tile nothing is stored into the column-minimum window, and it is not written back. -/
theorem idle_col : ∀ t : Fin cfg0.N, ¬lastTile (grid0.coords t) → cfg0.idle 3 (grid0.coords t) = true := by decide +kernel
theorem keep_col : ∀ t : Fin cfg0.N, ¬lastTile (grid0.coords t) → (cfg0.win 3).flush t = false := by decide +kernel
/-- On the last tile it is stored. -/
theorem live_col : ∀ t : Fin cfg0.N, lastTile (grid0.coords t) → cfg0.idle 3 (grid0.coords t) = false := by decide +kernel

/-! ## The buffers of a point -/

/-- The current staging buffers at point t: the 256 × 3 tile of the first cloud, the 3 × 2048 second cloud of the
    batch, the 256 row minima, the 2048 column minima. -/
abbrev aBuf (t : Fin cfg0.N) : Memref sig .tc .vmem S1x256x3 .f32 := win0_0.stage (cfg0.slots t 0)
abbrev aWhole (t : Fin cfg0.N) : (aBuf t).IsWhole := hstage0_0 ((cfg0.slots t 0).cast nbuf0_0)
abbrev bBuf (t : Fin cfg0.N) : Memref sig .tc .vmem S1x3x2048 .f32 := win0_1.stage (cfg0.slots t 1)
abbrev bWhole (t : Fin cfg0.N) : (bBuf t).IsWhole := hstage0_1 ((cfg0.slots t 1).cast nbuf0_1)
abbrev rowBuf (t : Fin cfg0.N) : Memref sig .tc .vmem S1x256x1 .f32 := win0_2.stage (cfg0.slots t 2)
abbrev rowWhole (t : Fin cfg0.N) : (rowBuf t).IsWhole := hstage0_2 ((cfg0.slots t 2).cast nbuf0_2)
abbrev colBuf (t : Fin cfg0.N) : Memref sig .tc .vmem S1x1x2048 .f32 := win0_3.stage (cfg0.slots t 3)
abbrev colWhole (t : Fin cfg0.N) : (colBuf t).IsWhole := hstage0_3 ((cfg0.slots t 3).cast nbuf0_3)
/-- The scratch row carrying the running column minimum across the tiles of a batch. -/
abbrev accBuf : Memref sig .tc .vmem S1x2048 .f32 := Memref.whole cc0_scratch0

/-- The region's invariant before the first point: the scratch row at some contents, the generator register at
    some state. -/
theorem regionInv_eq (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

end Cert.Kernel.Tile

end
-- ==== Proof.K.Runs.lean ====
/-
  The body of one grid point, run on any whole staging buffers, in each of the three cases the tile coordinate
  selects. In every case the row-minimum buffer ends at the row minima of the point's distance tile. On a first
  tile the scratch row, whatever it held, ends at the tile's column minima. On a later tile the scratch row,
  holding s, ends at the entrywise minimum of s and the tile's column minima; and if the tile is also the last
  one of its batch that new row is copied into the column-minimum buffer. The inputs are left as they were.
-/
import proofs.«143655_j62749472194941_1_alg».proof.Proof.K.Setup
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- All-zero offsets, however many axes. -/
theorem zeros3 : (![0, 0, 0] : Fin 3 → ℕ) = fun _ => 0 := by funext a; fin_cases a <;> rfl
theorem zeros2 : (![0, 0] : Fin 2 → ℕ) = fun _ => 0 := by funext a; fin_cases a <;> rfl

/-- A buffer stored whole once reads back the stored value, whatever it held before. -/
theorem read_store {sh : Shape} (v : View sig .tc .vmem sh .f32) {off : Fin sh.rank → ℕ} (hz : off = fun _ => 0)
    (inb : ∀ a, off a + sh.size a ≤ sh.size a) (f : v.ty.Contents (Elt F)) (w : sh.Idx → Elt F .f32) :
    v.read (Elt F) (v.writes (Elt F) f [⟨Rect.unit off sh.size inb, w⟩]) = w :=
  (View.read_writes_eq_canon v f _ (fun y => ⟨_, List.mem_singleton_self _, View.mem_set_unit_zero hz inb y⟩)).trans
    (View.canon_unit_zero hz inb w)

set_option maxHeartbeats 1000000 in
/-- FIRST TILE: the scratch row is reset to the tile's column minima; the column-minimum buffer is not touched. -/
theorem run_first (c : Dev nD) (i : grid0.Coords) (arg2 : Memref sig .tc .vmem S1x256x3 .f32) (harg2 : arg2.IsWhole) (arg3 : Memref sig .tc .vmem S1x3x2048 .f32) (harg3 : arg3.IsWhole)
    (arg4 : Memref sig .tc .vmem S1x256x1 .f32) (harg4 : arg4.IsWhole) (arg5 : Memref sig .tc .vmem S1x1x2048 .f32) (harg5 : arg5.IsWhole)
    (arg6 : Memref sig .tc .vmem S1x2048 .f32) (harg6 : arg6.IsWhole)
    (h1 : firstTile i) (h2 : ¬laterTile i) (h3 : ¬lastTile i)
    (x0 : Vec F S1x256x3 .f32) (x1 : Vec F S1x3x2048 .f32) (y3 : Vec F S1x1x2048 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare y3
            ∗ owns (c : Thread nD τ) arg6 fullShare (k0_pay5 x0 x1)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%d6, %f6, -, H6⟩, Hk⟩
  obtain rfl := harg2.eq_unread hf0; obtain rfl := harg3.eq_unread hf1
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    exact (read_store _ zeros3 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  isplitl [H5]
  · iexists _; isplitr; · ipureintro; exact hf5
    iexact H5
  iexists _; isplitr
  swap; · iexact H6
  ipureintro
  exact (read_store _ zeros2 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])

set_option maxHeartbeats 1000000 in
/-- LATER TILE, not the last: the scratch row, at s, is lowered to min(s, column minima); the column-minimum buffer
    is not touched. -/
theorem run_later (c : Dev nD) (i : grid0.Coords) (arg2 : Memref sig .tc .vmem S1x256x3 .f32) (harg2 : arg2.IsWhole) (arg3 : Memref sig .tc .vmem S1x3x2048 .f32) (harg3 : arg3.IsWhole)
    (arg4 : Memref sig .tc .vmem S1x256x1 .f32) (harg4 : arg4.IsWhole) (arg5 : Memref sig .tc .vmem S1x1x2048 .f32) (harg5 : arg5.IsWhole)
    (arg6 : Memref sig .tc .vmem S1x2048 .f32) (harg6 : arg6.IsWhole)
    (h1 : ¬firstTile i) (h2 : laterTile i) (h3 : ¬lastTile i)
    (x0 : Vec F S1x256x3 .f32) (x1 : Vec F S1x3x2048 .f32) (y3 : Vec F S1x1x2048 .f32) (s : Vec F S1x2048 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y3
        ∗ owns (c : Thread nD τ) arg6 fullShare s
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare y3
            ∗ owns (c : Thread nD τ) arg6 fullShare (k0_pay6 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    exact (read_store _ zeros3 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  isplitl [H5]
  · iexists _; isplitr; · ipureintro; exact hf5
    iexact H5
  iexists _; isplitr
  swap; · iexact H6
  ipureintro
  exact (read_store _ zeros2 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])

set_option maxHeartbeats 1000000 in
/-- LAST TILE: the scratch row, at s, is lowered to min(s, column minima), and that row is copied, as a 1 × 1 × 2048
    block, into the column-minimum buffer, whatever it held. -/
theorem run_last (c : Dev nD) (i : grid0.Coords) (arg2 : Memref sig .tc .vmem S1x256x3 .f32) (harg2 : arg2.IsWhole) (arg3 : Memref sig .tc .vmem S1x3x2048 .f32) (harg3 : arg3.IsWhole)
    (arg4 : Memref sig .tc .vmem S1x256x1 .f32) (harg4 : arg4.IsWhole) (arg5 : Memref sig .tc .vmem S1x1x2048 .f32) (harg5 : arg5.IsWhole)
    (arg6 : Memref sig .tc .vmem S1x2048 .f32) (harg6 : arg6.IsWhole)
    (h1 : ¬firstTile i) (h2 : laterTile i) (h3 : lastTile i)
    (x0 : Vec F S1x256x3 .f32) (x1 : Vec F S1x3x2048 .f32) (s : Vec F S1x2048 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare (k0_pay1 (k0_pay6 x0 x1 s))
            ∗ owns (c : Thread nD τ) arg6 fullShare (k0_pay6 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%d5, %f5, -, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    exact (read_store _ zeros3 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  isplitl [H5]
  · iexists _; isplitr
    swap; · iexact H5
    ipureintro
    exact (read_store _ zeros3 _ _ _).trans (by sl_unfold_words; simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  iexists _; isplitr
  swap; · iexact H6
  ipureintro
  exact (read_store _ zeros2 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])

end Cert.Kernel.Tile

end
-- ==== Proof.K.Data.lean ====
/-
  What every buffer holds after each grid point. Write A(t) for the 256 × 3 tile of the first cloud and B(t) for
  the 3 × 2048 second cloud staged at point t. The row-minimum buffer ends at the row minima of the distance tile
  of A(t) and B(t). The scratch row follows a recursion along the points: on a first tile (t ≡ 0 mod 8) it is the
  tile's column minima; on any other tile it is the entrywise minimum of what the point before left and the
  tile's column minima. The column-minimum buffer, where it is stored (t ≡ 7 mod 8), holds the scratch row of that
  point. The invariant handed from point to point says exactly that the scratch row holds the recursion's value.
-/
import proofs.«143655_j62749472194941_1_alg».proof.Proof.K.Setup

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tile of the first cloud and the second cloud of the batch, as point t finds them staged. -/
abbrev aBlk (c : Dev nD) (t : Fin cfg0.N) : Vec F S1x256x3 .f32 := iblk m c 0 t
abbrev bBlk (c : Dev nD) (t : Fin cfg0.N) : Vec F S1x3x2048 .f32 := iblk m c 1 t

/-- THE RUNNING COLUMN MINIMUM after point n: reset on a first tile, lowered on every other tile. -/
def colAcc (c : Dev nD) : (n : ℕ) → n < cfg0.N → Vec F S1x2048 .f32
  | 0, hn => k0_pay5 (aBlk m c ⟨0, hn⟩) (bBlk m c ⟨0, hn⟩)
  | n + 1, hn =>
    if (n + 1) % 8 = 0 then k0_pay5 (aBlk m c ⟨n + 1, hn⟩) (bBlk m c ⟨n + 1, hn⟩)
    else k0_pay6 (aBlk m c ⟨n + 1, hn⟩) (bBlk m c ⟨n + 1, hn⟩) (colAcc c n (Nat.lt_of_succ_lt hn))

/-- On a first tile the running minimum restarts from the tile's own column minima. -/
theorem colAcc_first (c : Dev nD) (t : Fin cfg0.N) (h : t.val % 8 = 0) :
    colAcc m c t.val t.isLt = k0_pay5 (aBlk m c t) (bBlk m c t) := by
  obtain ⟨n, hn⟩ := t
  cases n with
  | zero => rfl
  | succ n => exact if_pos h

/-- On any other tile it is the minimum of the previous point's row and the tile's column minima. -/
theorem colAcc_later (c : Dev nD) (t : Fin cfg0.N) (h : ¬t.val % 8 = 0) :
    colAcc m c t.val t.isLt
      = k0_pay6 (aBlk m c t) (bBlk m c t) (colAcc m c (t.val - 1) (Nat.lt_of_le_of_lt (Nat.sub_le _ _) t.isLt)) := by
  obtain ⟨n, hn⟩ := t
  cases n with
  | zero => exact absurd (Nat.zero_mod _) h
  | succ n => exact if_neg h

/-- The invariant before point n: before the first point the scratch row holds anything; afterwards it holds the
    running column minimum of the point before. -/
def carried (c : Dev nD) : (n : ℕ) → n ≤ cfg0.N → sProp 𝕄
  | 0, _ => Pipeline.ΦA spec0 c
  | n + 1, hn => iprop(iprop(owns (c : Thread nD τ) accBuf fullShare (colAcc m c n hn)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accBuf fullShare (colAcc m c n hn)) ∗ (∃ r, prngReg c r)) := rfl

theorem carried_pos (c : Dev nD) (n : ℕ) (h : n ≤ cfg0.N) (hz : n ≠ 0) :
    carried m c n h = iprop(iprop(owns (c : Thread nD τ) accBuf fullShare (colAcc m c (n - 1) (by omega))) ∗ (∃ r, prngReg c r)) := by
  cases n with
  | zero => exact absurd rfl hz
  | succ n => rfl

/-- The proof data of the one pipeline on a core: the arrays as the region finds them; after the body each input
    buffer at its block, the row-minimum buffer at the tile's row minima, the column-minimum buffer at the running
    column minimum; the invariant that carries the scratch row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (aBlk m c t) (bBlk m c t)
    | ⟨3, _⟩ => k0_pay1 (colAcc m c t.val t.isLt)
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_a (c : Dev nD) (t : Fin cfg0.N) : (dats m 0 c).after 0 t = iblk m c 0 t := by dsimp only [dats]
theorem after_b (c : Dev nD) (t : Fin cfg0.N) : (dats m 0 c).after 1 t = iblk m c 1 t := by dsimp only [dats]
theorem after_row (c : Dev nD) (t : Fin cfg0.N) : (dats m 0 c).after 2 t = k0_pay3 (aBlk m c t) (bBlk m c t) := by dsimp only [dats]
theorem after_col (c : Dev nD) (t : Fin cfg0.N) : (dats m 0 c).after 3 t = k0_pay1 (colAcc m c t.val t.isLt) := by dsimp only [dats]

/-- Each input buffer holds its block at every point, fetched there or not. -/
theorem before_a (c : Dev nD) (t : Fin cfg0.N) (d) : (dats m 0 c).before 0 t d = iblk m c 0 t :=
  before0_0_of m (dats m 0 c) (A_eq m c 0) (after_a m c) t d
theorem before_b (c : Dev nD) (t : Fin cfg0.N) (d) : (dats m 0 c).before 1 t d = iblk m c 1 t :=
  before0_1_of m (dats m 0 c) (A_eq m c 1) (after_b m c) t d

/-- What the obligation asks of each window after the body. -/
theorem leaves_a (c : Dev nD) (t : Fin cfg0.N) :
    (dats m 0 c).leavesExact 0 t = owns (c : Thread nD τ) (aBuf t) fullShare (iblk m c 0 t) := by
  rw [show (dats m 0 c).leavesExact 0 t = owns (c : Thread nD τ) (aBuf t) fullShare ((dats m 0 c).after 0 t) from by
    unfold Dat.leavesExact; rw [live_a t], after_a]
theorem leaves_b (c : Dev nD) (t : Fin cfg0.N) :
    (dats m 0 c).leavesExact 1 t = owns (c : Thread nD τ) (bBuf t) fullShare (iblk m c 1 t) := by
  rw [show (dats m 0 c).leavesExact 1 t = owns (c : Thread nD τ) (bBuf t) fullShare ((dats m 0 c).after 1 t) from by
    unfold Dat.leavesExact; rw [live_b t], after_b]
theorem leaves_row (c : Dev nD) (t : Fin cfg0.N) :
    (dats m 0 c).leavesExact 2 t = owns (c : Thread nD τ) (rowBuf t) fullShare (k0_pay3 (aBlk m c t) (bBlk m c t)) := by
  rw [show (dats m 0 c).leavesExact 2 t = owns (c : Thread nD τ) (rowBuf t) fullShare ((dats m 0 c).after 2 t) from by
    unfold Dat.leavesExact; rw [live_row t], after_row]
theorem leaves_col_last (c : Dev nD) (t : Fin cfg0.N) (h : lastTile (grid0.coords t)) :
    (dats m 0 c).leavesExact 3 t = owns (c : Thread nD τ) (colBuf t) fullShare (k0_pay1 (colAcc m c t.val t.isLt)) := by
  rw [show (dats m 0 c).leavesExact 3 t = owns (c : Thread nD τ) (colBuf t) fullShare ((dats m 0 c).after 3 t) from by
    unfold Dat.leavesExact; rw [live_col t h], after_col]
theorem leaves_col_idle (c : Dev nD) (t : Fin cfg0.N) (h : ¬lastTile (grid0.coords t)) :
    (dats m 0 c).leavesExact 3 t = iprop(∃ d, owns (c : Thread nD τ) (colBuf t) fullShare ((dats m 0 c).before 3 t d)) :=
  Dat.leavesExact_idle (dats m 0 c) 3 t (idle_col t h) (keep_col t h)

end Cert.Kernel.Tile

end
-- ==== Proof.K.Body.lean ====
/-
  The body obligation of the pipeline. At a point t the loop hands the body the invariant (the scratch row at the
  running column minimum of the point before, or at anything before the first point) and the four current staging
  buffers; the two inputs hold their blocks. The remainder of t by 8 decides which of the three cases runs: 0 a
  first tile, 7 a last tile, anything else a later tile. Each case's run returns the buffers at exactly the values
  the recursion names for point t, so the invariant for point t + 1 is re-established; off the last tile the
  column-minimum buffer is handed back as it was found.
-/
import proofs.«143655_j62749472194941_1_alg».proof.Proof.K.Runs
import proofs.«143655_j62749472194941_1_alg».proof.Proof.K.Data

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (aBuf t) fullShare ((dats m 0 c).before 0 t d))
    ∗ (∃ d, owns (c : Thread nD τ) (bBuf t) fullShare ((dats m 0 c).before 1 t d))
    ∗ (∃ d, owns (c : Thread nD τ) (rowBuf t) fullShare ((dats m 0 c).before 2 t d))
    ∗ (∃ d, owns (c : Thread nD τ) (colBuf t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_a, before_b]
  rw [show (dats m 0 c).owesAt () t.succ = (dats m 0 c).owesAt () t.castSucc from rfl]
  rw [show (dats m 0 c).Φ t.succ = carried m c (t.val + 1) t.isLt from rfl, carried_succ]
  rw [leaves_a, leaves_b, leaves_row]
  by_cases h0 : t.val % 8 = 0
  · -- a first tile: the scratch row restarts
    have hF : firstTile (grid0.coords t) := (firstTile_iff t).mpr h0
    have hL : ¬laterTile (grid0.coords t) := fun h => (laterTile_iff t).mp h h0
    have hE : ¬lastTile (grid0.coords t) := fun h => by have := (lastTile_iff t).mp h; omega
    rw [leaves_col_idle m c t hE, colAcc_first m c t h0]
    by_cases hz : t.val = 0
    · rw [carried_castSucc m c t, carried_zero m c _ _ hz, regionInv_eq]
      iintro ⟨⟨HS, Hg⟩, Ho, ⟨%d0, H0⟩, ⟨%d1, H1⟩, ⟨%d2, H2⟩, ⟨%d3, H3⟩⟩
      iapply (run_first c (grid0.coords t) (aBuf t) (aWhole t) (bBuf t) (bWhole t) (rowBuf t) (rowWhole t) (colBuf t) (colWhole t) accBuf (Memref.isWhole_whole _) hF hL hE (iblk m c 0 t) (iblk m c 1 t) ((dats m 0 c).before 3 t d3) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [carried_castSucc m c t, carried_pos m c _ _ hz]
      iintro ⟨⟨HS, Hg⟩, Ho, ⟨%d0, H0⟩, ⟨%d1, H1⟩, ⟨%d2, H2⟩, ⟨%d3, H3⟩⟩
      iapply (run_first c (grid0.coords t) (aBuf t) (aWhole t) (bBuf t) (bWhole t) (rowBuf t) (rowWhole t) (colBuf t) (colWhole t) accBuf (Memref.isWhole_whole _) hF hL hE (iblk m c 0 t) (iblk m c 1 t) ((dats m 0 c).before 3 t d3) Set.univ _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hF : ¬firstTile (grid0.coords t) := fun h => h0 ((firstTile_iff t).mp h)
    have hL : laterTile (grid0.coords t) := (laterTile_iff t).mpr h0
    have hz : t.val ≠ 0 := fun h => h0 (by rw [h])
    rw [carried_castSucc m c t, carried_pos m c _ _ hz, colAcc_later m c t h0]
    by_cases h7 : t.val % 8 = 7
    · -- the last tile of a batch: the lowered row is also copied out
      have hE : lastTile (grid0.coords t) := (lastTile_iff t).mpr h7
      rw [leaves_col_last m c t hE, colAcc_later m c t h0]
      iintro ⟨⟨HS, Hg⟩, Ho, ⟨%d0, H0⟩, ⟨%d1, H1⟩, ⟨%d2, H2⟩, ⟨%d3, H3⟩⟩
      iapply (run_last c (grid0.coords t) (aBuf t) (aWhole t) (bBuf t) (bWhole t) (rowBuf t) (rowWhole t) (colBuf t) (colWhole t) accBuf (Memref.isWhole_whole _) hF hL hE (iblk m c 0 t) (iblk m c 1 t) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a later tile inside a batch: the row is lowered
      have hE : ¬lastTile (grid0.coords t) := fun h => h7 ((lastTile_iff t).mp h)
      rw [leaves_col_idle m c t hE]
      iintro ⟨⟨HS, Hg⟩, Ho, ⟨%d0, H0⟩, ⟨%d1, H1⟩, ⟨%d2, H2⟩, ⟨%d3, H3⟩⟩
      iapply (run_later c (grid0.coords t) (aBuf t) (aWhole t) (bBuf t) (bWhole t) (rowBuf t) (rowWhole t) (colBuf t) (colWhole t) accBuf (Memref.isWhole_whole _) hF hL hE (iblk m c 0 t) (iblk m c 1 t) ((dats m 0 c).before 3 t d3) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the scratch row's contents are forgotten again. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = carried m c (Fin.last cfg0.N).val (Nat.le_of_lt_succ (Fin.last cfg0.N).isLt) from rfl,
    carried_pos m c _ _ hN, regionInv_eq]
  iintro ⟨HS, Hg⟩
  isplitl [HS]
  · iexists _; iexact HS
  iexact Hg

end Cert.Kernel.Tile

end
-- ==== Proof.K.Frame.lean ====
/-
  The run of the whole program: the transposition of the second cloud, the pipelined region over the 256 points
  with the proof data of the previous modules, and the host lines that follow. Every weakly fair execution ends
  with each array of the pipeline at what the proof data computes (the row minima written back point by point,
  the column minima written back once per batch) and every other buffer as the later host lines leave it; read
  at the four argument arrays this is the frame claim.
-/
import proofs.«143655_j62749472194941_1_alg».proof.Proof.K.Body

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hin := hin m) (hout := hout m)

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Tile

end
-- ==== Proof.KI.Setup.lean ====
/-
  The kernel walks a grid of 32 batches by 8 row tiles. At each point it forms the 256 × 2048 tile of squared
  distances between 256 points of the first cloud and all 2048 points of the second, writes the row minima of
  the tile, and folds the column minima into a running minimum kept in a scratch row across the 8 tiles of a
  batch: the scratch is reset on the first tile, lowered on each later tile, and copied out on the last one.
  This module names the three tile conditions the body branches on and decides each over the 256 grid points
  (first tile: point ≡ 0 mod 8; later tile: point ≢ 0 mod 8; last tile: point ≡ 7 mod 8), says where the
  column-minimum window is idle, names the staging buffers of a point, and restates the region invariant as
  "the scratch row holds something".
-/
import proofs.«143655_j62749472194941_1_alg».proof.Proof.Gen.KernelIdeal.Skeleton
import proofs.«143655_j62749472194941_1_alg».proof.Proof.Gen.KernelIdeal.Frame

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tile conditions -/

/-- The row-tile coordinate is 0: the scratch row is reset to this tile's column minima. -/
abbrev firstTile (i : grid0.Coords) : Prop :=
  (Scalar.cmpi .ne (Scalar.extui (Scalar.cmpi .eq (BitVec.ofNat 32 (i 1).val) 0#32)) 0#32) = 1#1
/-- The row-tile coordinate is not 0: the scratch row is lowered by this tile's column minima. -/
abbrev laterTile (i : grid0.Coords) : Prop :=
  (Scalar.cmpi .ne (Scalar.extui (Scalar.cmpi .ne (BitVec.ofNat 32 (i 1).val) 0#32)) 0#32) = 1#1
/-- The row-tile coordinate is 7: the scratch row is copied to the column-minimum window. -/
abbrev lastTile (i : grid0.Coords) : Prop := k0_cond3 i = 1#1

/-- Point t is a first tile exactly when t ≡ 0 (mod 8): the row tile is the point's remainder by 8. -/
theorem firstTile_iff : ∀ t : Fin cfg0.N, firstTile (grid0.coords t) ↔ t.val % 8 = 0 :=
  (by decide +kernel : ∀ t : Fin grid0.N, firstTile (grid0.coords t) ↔ t.val % 8 = 0)
/-- Point t is a later tile exactly when t ≢ 0 (mod 8). -/
theorem laterTile_iff : ∀ t : Fin cfg0.N, laterTile (grid0.coords t) ↔ ¬ t.val % 8 = 0 :=
  (by decide +kernel : ∀ t : Fin grid0.N, laterTile (grid0.coords t) ↔ ¬ t.val % 8 = 0)
/-- Point t is a last tile exactly when t ≡ 7 (mod 8). -/
theorem lastTile_iff : ∀ t : Fin cfg0.N, lastTile (grid0.coords t) ↔ t.val % 8 = 7 :=
  (by decide +kernel : ∀ t : Fin grid0.N, lastTile (grid0.coords t) ↔ t.val % 8 = 7)

/-! ## Where the windows are idle -/

/-- The two input windows and the row-minimum window are stored or read at every point. -/
theorem live_a : ∀ t : Fin cfg0.N, cfg0.idle 0 (grid0.coords t) = false := by decide +kernel
theorem live_b : ∀ t : Fin cfg0.N, cfg0.idle 1 (grid0.coords t) = false := by decide +kernel
theorem live_row : ∀ t : Fin cfg0.N, cfg0.idle 2 (grid0.coords t) = false := by decide +kernel
/-- Off the last tile nothing is stored into the column-minimum window, and it is not written back. -/
theorem idle_col : ∀ t : Fin cfg0.N, ¬lastTile (grid0.coords t) → cfg0.idle 3 (grid0.coords t) = true := by decide +kernel
theorem keep_col : ∀ t : Fin cfg0.N, ¬lastTile (grid0.coords t) → (cfg0.win 3).flush t = false := by decide +kernel
/-- On the last tile it is stored. -/
theorem live_col : ∀ t : Fin cfg0.N, lastTile (grid0.coords t) → cfg0.idle 3 (grid0.coords t) = false := by decide +kernel

/-! ## The buffers of a point -/

/-- The current staging buffers at point t: the 256 × 3 tile of the first cloud, the 3 × 2048 second cloud of the
    batch, the 256 row minima, the 2048 column minima. -/
abbrev aBuf (t : Fin cfg0.N) : Memref sig .tc .vmem S1x256x3 .f32 := win0_0.stage (cfg0.slots t 0)
abbrev aWhole (t : Fin cfg0.N) : (aBuf t).IsWhole := hstage0_0 ((cfg0.slots t 0).cast nbuf0_0)
abbrev bBuf (t : Fin cfg0.N) : Memref sig .tc .vmem S1x3x2048 .f32 := win0_1.stage (cfg0.slots t 1)
abbrev bWhole (t : Fin cfg0.N) : (bBuf t).IsWhole := hstage0_1 ((cfg0.slots t 1).cast nbuf0_1)
abbrev rowBuf (t : Fin cfg0.N) : Memref sig .tc .vmem S1x256x1 .f32 := win0_2.stage (cfg0.slots t 2)
abbrev rowWhole (t : Fin cfg0.N) : (rowBuf t).IsWhole := hstage0_2 ((cfg0.slots t 2).cast nbuf0_2)
abbrev colBuf (t : Fin cfg0.N) : Memref sig .tc .vmem S1x1x2048 .f32 := win0_3.stage (cfg0.slots t 3)
abbrev colWhole (t : Fin cfg0.N) : (colBuf t).IsWhole := hstage0_3 ((cfg0.slots t 3).cast nbuf0_3)
/-- The scratch row carrying the running column minimum across the tiles of a batch. -/
abbrev accBuf : Memref sig .tc .vmem S1x2048 .f32 := Memref.whole cc0_scratch0

/-- The region's invariant before the first point: the scratch row at some contents, the generator register at
    some state. -/
theorem regionInv_eq (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

end Cert.KernelIdeal.Tile

end
-- ==== Proof.KI.Runs.lean ====
/-
  The body of one grid point, run on any whole staging buffers, in each of the three cases the tile coordinate
  selects. In every case the row-minimum buffer ends at the row minima of the point's distance tile. On a first
  tile the scratch row, whatever it held, ends at the tile's column minima. On a later tile the scratch row,
  holding s, ends at the entrywise minimum of s and the tile's column minima; and if the tile is also the last
  one of its batch that new row is copied into the column-minimum buffer. The inputs are left as they were.
-/
import proofs.«143655_j62749472194941_1_alg».proof.Proof.KI.Setup
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- All-zero offsets, however many axes. -/
theorem zeros3 : (![0, 0, 0] : Fin 3 → ℕ) = fun _ => 0 := by funext a; fin_cases a <;> rfl
theorem zeros2 : (![0, 0] : Fin 2 → ℕ) = fun _ => 0 := by funext a; fin_cases a <;> rfl

/-- A buffer stored whole once reads back the stored value, whatever it held before. -/
theorem read_store {sh : Shape} (v : View sig .tc .vmem sh .f32) {off : Fin sh.rank → ℕ} (hz : off = fun _ => 0)
    (inb : ∀ a, off a + sh.size a ≤ sh.size a) (f : v.ty.Contents (Elt F)) (w : sh.Idx → Elt F .f32) :
    v.read (Elt F) (v.writes (Elt F) f [⟨Rect.unit off sh.size inb, w⟩]) = w :=
  (View.read_writes_eq_canon v f _ (fun y => ⟨_, List.mem_singleton_self _, View.mem_set_unit_zero hz inb y⟩)).trans
    (View.canon_unit_zero hz inb w)

set_option maxHeartbeats 1000000 in
/-- FIRST TILE: the scratch row is reset to the tile's column minima; the column-minimum buffer is not touched. -/
theorem run_first (c : Dev nD) (i : grid0.Coords) (arg2 : Memref sig .tc .vmem S1x256x3 .f32) (harg2 : arg2.IsWhole) (arg3 : Memref sig .tc .vmem S1x3x2048 .f32) (harg3 : arg3.IsWhole)
    (arg4 : Memref sig .tc .vmem S1x256x1 .f32) (harg4 : arg4.IsWhole) (arg5 : Memref sig .tc .vmem S1x1x2048 .f32) (harg5 : arg5.IsWhole)
    (arg6 : Memref sig .tc .vmem S1x2048 .f32) (harg6 : arg6.IsWhole)
    (h1 : firstTile i) (h2 : ¬laterTile i) (h3 : ¬lastTile i)
    (x0 : Vec F S1x256x3 .f32) (x1 : Vec F S1x3x2048 .f32) (y3 : Vec F S1x1x2048 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare y3
            ∗ owns (c : Thread nD τ) arg6 fullShare (k0_pay5 x0 x1)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%d6, %f6, -, H6⟩, Hk⟩
  obtain rfl := harg2.eq_unread hf0; obtain rfl := harg3.eq_unread hf1
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    exact (read_store _ zeros3 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  isplitl [H5]
  · iexists _; isplitr; · ipureintro; exact hf5
    iexact H5
  iexists _; isplitr
  swap; · iexact H6
  ipureintro
  exact (read_store _ zeros2 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])

set_option maxHeartbeats 1000000 in
/-- LATER TILE, not the last: the scratch row, at s, is lowered to min(s, column minima); the column-minimum buffer
    is not touched. -/
theorem run_later (c : Dev nD) (i : grid0.Coords) (arg2 : Memref sig .tc .vmem S1x256x3 .f32) (harg2 : arg2.IsWhole) (arg3 : Memref sig .tc .vmem S1x3x2048 .f32) (harg3 : arg3.IsWhole)
    (arg4 : Memref sig .tc .vmem S1x256x1 .f32) (harg4 : arg4.IsWhole) (arg5 : Memref sig .tc .vmem S1x1x2048 .f32) (harg5 : arg5.IsWhole)
    (arg6 : Memref sig .tc .vmem S1x2048 .f32) (harg6 : arg6.IsWhole)
    (h1 : ¬firstTile i) (h2 : laterTile i) (h3 : ¬lastTile i)
    (x0 : Vec F S1x256x3 .f32) (x1 : Vec F S1x3x2048 .f32) (y3 : Vec F S1x1x2048 .f32) (s : Vec F S1x2048 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y3
        ∗ owns (c : Thread nD τ) arg6 fullShare s
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare y3
            ∗ owns (c : Thread nD τ) arg6 fullShare (k0_pay6 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    exact (read_store _ zeros3 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  isplitl [H5]
  · iexists _; isplitr; · ipureintro; exact hf5
    iexact H5
  iexists _; isplitr
  swap; · iexact H6
  ipureintro
  exact (read_store _ zeros2 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])

set_option maxHeartbeats 1000000 in
/-- LAST TILE: the scratch row, at s, is lowered to min(s, column minima), and that row is copied, as a 1 × 1 × 2048
    block, into the column-minimum buffer, whatever it held. -/
theorem run_last (c : Dev nD) (i : grid0.Coords) (arg2 : Memref sig .tc .vmem S1x256x3 .f32) (harg2 : arg2.IsWhole) (arg3 : Memref sig .tc .vmem S1x3x2048 .f32) (harg3 : arg3.IsWhole)
    (arg4 : Memref sig .tc .vmem S1x256x1 .f32) (harg4 : arg4.IsWhole) (arg5 : Memref sig .tc .vmem S1x1x2048 .f32) (harg5 : arg5.IsWhole)
    (arg6 : Memref sig .tc .vmem S1x2048 .f32) (harg6 : arg6.IsWhole)
    (h1 : ¬firstTile i) (h2 : laterTile i) (h3 : lastTile i)
    (x0 : Vec F S1x256x3 .f32) (x1 : Vec F S1x3x2048 .f32) (s : Vec F S1x2048 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare (k0_pay3 x0 x1) ∗ owns (c : Thread nD τ) arg5 fullShare (k0_pay1 (k0_pay6 x0 x1 s))
            ∗ owns (c : Thread nD τ) arg6 fullShare (k0_pay6 x0 x1 s)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%d4, %f4, -, H4⟩, ⟨%d5, %f5, -, H5⟩, ⟨%f6, %hf6, H6⟩, Hk⟩
  obtain rfl := harg2.eq_unread hf0; obtain rfl := harg3.eq_unread hf1; obtain rfl := harg6.eq_unread hf6
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    exact (read_store _ zeros3 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  isplitl [H5]
  · iexists _; isplitr
    swap; · iexact H5
    ipureintro
    exact (read_store _ zeros3 _ _ _).trans (by sl_unfold_words; simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])
  iexists _; isplitr
  swap; · iexact H6
  ipureintro
  exact (read_store _ zeros2 _ _ _).trans (by simp only [View.readAt_eq_ld, harg2.read_unread, harg3.read_unread, harg6.read_unread,
      View.ld_unit_zero (S := S1x256x3) zeros3, View.ld_unit_zero (S := S1x3x2048) zeros3, View.ld_unit_zero (S := S1x2048) zeros2,
      View.readCov_unit_zero (S := S1x2048) _ zeros2])

end Cert.KernelIdeal.Tile

end
-- ==== Proof.KI.Data.lean ====
/-
  What every buffer holds after each grid point. Write A(t) for the 256 × 3 tile of the first cloud and B(t) for
  the 3 × 2048 second cloud staged at point t. The row-minimum buffer ends at the row minima of the distance tile
  of A(t) and B(t). The scratch row follows a recursion along the points: on a first tile (t ≡ 0 mod 8) it is the
  tile's column minima; on any other tile it is the entrywise minimum of what the point before left and the
  tile's column minima. The column-minimum buffer, where it is stored (t ≡ 7 mod 8), holds the scratch row of that
  point. The invariant handed from point to point says exactly that the scratch row holds the recursion's value.
-/
import proofs.«143655_j62749472194941_1_alg».proof.Proof.KI.Setup

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tile of the first cloud and the second cloud of the batch, as point t finds them staged. -/
abbrev aBlk (c : Dev nD) (t : Fin cfg0.N) : Vec F S1x256x3 .f32 := iblk m c 0 t
abbrev bBlk (c : Dev nD) (t : Fin cfg0.N) : Vec F S1x3x2048 .f32 := iblk m c 1 t

/-- THE RUNNING COLUMN MINIMUM after point n: reset on a first tile, lowered on every other tile. -/
def colAcc (c : Dev nD) : (n : ℕ) → n < cfg0.N → Vec F S1x2048 .f32
  | 0, hn => k0_pay5 (aBlk m c ⟨0, hn⟩) (bBlk m c ⟨0, hn⟩)
  | n + 1, hn =>
    if (n + 1) % 8 = 0 then k0_pay5 (aBlk m c ⟨n + 1, hn⟩) (bBlk m c ⟨n + 1, hn⟩)
    else k0_pay6 (aBlk m c ⟨n + 1, hn⟩) (bBlk m c ⟨n + 1, hn⟩) (colAcc c n (Nat.lt_of_succ_lt hn))

/-- On a first tile the running minimum restarts from the tile's own column minima. -/
theorem colAcc_first (c : Dev nD) (t : Fin cfg0.N) (h : t.val % 8 = 0) :
    colAcc m c t.val t.isLt = k0_pay5 (aBlk m c t) (bBlk m c t) := by
  obtain ⟨n, hn⟩ := t
  cases n with
  | zero => rfl
  | succ n => exact if_pos h

/-- On any other tile it is the minimum of the previous point's row and the tile's column minima. -/
theorem colAcc_later (c : Dev nD) (t : Fin cfg0.N) (h : ¬t.val % 8 = 0) :
    colAcc m c t.val t.isLt
      = k0_pay6 (aBlk m c t) (bBlk m c t) (colAcc m c (t.val - 1) (Nat.lt_of_le_of_lt (Nat.sub_le _ _) t.isLt)) := by
  obtain ⟨n, hn⟩ := t
  cases n with
  | zero => exact absurd (Nat.zero_mod _) h
  | succ n => exact if_neg h

/-- The invariant before point n: before the first point the scratch row holds anything; afterwards it holds the
    running column minimum of the point before. -/
def carried (c : Dev nD) : (n : ℕ) → n ≤ cfg0.N → sProp 𝕄
  | 0, _ => Pipeline.ΦA spec0 c
  | n + 1, hn => iprop(iprop(owns (c : Thread nD τ) accBuf fullShare (colAcc m c n hn)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accBuf fullShare (colAcc m c n hn)) ∗ (∃ r, prngReg c r)) := rfl

theorem carried_pos (c : Dev nD) (n : ℕ) (h : n ≤ cfg0.N) (hz : n ≠ 0) :
    carried m c n h = iprop(iprop(owns (c : Thread nD τ) accBuf fullShare (colAcc m c (n - 1) (by omega))) ∗ (∃ r, prngReg c r)) := by
  cases n with
  | zero => exact absurd rfl hz
  | succ n => rfl

/-- The proof data of the one pipeline on a core: the arrays as the region finds them; after the body each input
    buffer at its block, the row-minimum buffer at the tile's row minima, the column-minimum buffer at the running
    column minimum; the invariant that carries the scratch row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (aBlk m c t) (bBlk m c t)
    | ⟨3, _⟩ => k0_pay1 (colAcc m c t.val t.isLt)
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after_a (c : Dev nD) (t : Fin cfg0.N) : (dats m 0 c).after 0 t = iblk m c 0 t := by dsimp only [dats]
theorem after_b (c : Dev nD) (t : Fin cfg0.N) : (dats m 0 c).after 1 t = iblk m c 1 t := by dsimp only [dats]
theorem after_row (c : Dev nD) (t : Fin cfg0.N) : (dats m 0 c).after 2 t = k0_pay3 (aBlk m c t) (bBlk m c t) := by dsimp only [dats]
theorem after_col (c : Dev nD) (t : Fin cfg0.N) : (dats m 0 c).after 3 t = k0_pay1 (colAcc m c t.val t.isLt) := by dsimp only [dats]

/-- Each input buffer holds its block at every point, fetched there or not. -/
theorem before_a (c : Dev nD) (t : Fin cfg0.N) (d) : (dats m 0 c).before 0 t d = iblk m c 0 t :=
  before0_0_of m (dats m 0 c) (A_eq m c 0) (after_a m c) t d
theorem before_b (c : Dev nD) (t : Fin cfg0.N) (d) : (dats m 0 c).before 1 t d = iblk m c 1 t :=
  before0_1_of m (dats m 0 c) (A_eq m c 1) (after_b m c) t d

/-- What the obligation asks of each window after the body. -/
theorem leaves_a (c : Dev nD) (t : Fin cfg0.N) :
    (dats m 0 c).leavesExact 0 t = owns (c : Thread nD τ) (aBuf t) fullShare (iblk m c 0 t) := by
  rw [show (dats m 0 c).leavesExact 0 t = owns (c : Thread nD τ) (aBuf t) fullShare ((dats m 0 c).after 0 t) from by
    unfold Dat.leavesExact; rw [live_a t], after_a]
theorem leaves_b (c : Dev nD) (t : Fin cfg0.N) :
    (dats m 0 c).leavesExact 1 t = owns (c : Thread nD τ) (bBuf t) fullShare (iblk m c 1 t) := by
  rw [show (dats m 0 c).leavesExact 1 t = owns (c : Thread nD τ) (bBuf t) fullShare ((dats m 0 c).after 1 t) from by
    unfold Dat.leavesExact; rw [live_b t], after_b]
theorem leaves_row (c : Dev nD) (t : Fin cfg0.N) :
    (dats m 0 c).leavesExact 2 t = owns (c : Thread nD τ) (rowBuf t) fullShare (k0_pay3 (aBlk m c t) (bBlk m c t)) := by
  rw [show (dats m 0 c).leavesExact 2 t = owns (c : Thread nD τ) (rowBuf t) fullShare ((dats m 0 c).after 2 t) from by
    unfold Dat.leavesExact; rw [live_row t], after_row]
theorem leaves_col_last (c : Dev nD) (t : Fin cfg0.N) (h : lastTile (grid0.coords t)) :
    (dats m 0 c).leavesExact 3 t = owns (c : Thread nD τ) (colBuf t) fullShare (k0_pay1 (colAcc m c t.val t.isLt)) := by
  rw [show (dats m 0 c).leavesExact 3 t = owns (c : Thread nD τ) (colBuf t) fullShare ((dats m 0 c).after 3 t) from by
    unfold Dat.leavesExact; rw [live_col t h], after_col]
theorem leaves_col_idle (c : Dev nD) (t : Fin cfg0.N) (h : ¬lastTile (grid0.coords t)) :
    (dats m 0 c).leavesExact 3 t = iprop(∃ d, owns (c : Thread nD τ) (colBuf t) fullShare ((dats m 0 c).before 3 t d)) :=
  Dat.leavesExact_idle (dats m 0 c) 3 t (idle_col t h) (keep_col t h)

end Cert.KernelIdeal.Tile

end
-- ==== Proof.KI.Body.lean ====
/-
  The body obligation of the pipeline. At a point t the loop hands the body the invariant (the scratch row at the
  running column minimum of the point before, or at anything before the first point) and the four current staging
  buffers; the two inputs hold their blocks. The remainder of t by 8 decides which of the three cases runs: 0 a
  first tile, 7 a last tile, anything else a later tile. Each case's run returns the buffers at exactly the values
  the recursion names for point t, so the invariant for point t + 1 is re-established; off the last tile the
  column-minimum buffer is handed back as it was found.
-/
import proofs.«143655_j62749472194941_1_alg».proof.Proof.KI.Runs
import proofs.«143655_j62749472194941_1_alg».proof.Proof.KI.Data

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (aBuf t) fullShare ((dats m 0 c).before 0 t d))
    ∗ (∃ d, owns (c : Thread nD τ) (bBuf t) fullShare ((dats m 0 c).before 1 t d))
    ∗ (∃ d, owns (c : Thread nD τ) (rowBuf t) fullShare ((dats m 0 c).before 2 t d))
    ∗ (∃ d, owns (c : Thread nD τ) (colBuf t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_a, before_b]
  rw [show (dats m 0 c).owesAt () t.succ = (dats m 0 c).owesAt () t.castSucc from rfl]
  rw [show (dats m 0 c).Φ t.succ = carried m c (t.val + 1) t.isLt from rfl, carried_succ]
  rw [leaves_a, leaves_b, leaves_row]
  by_cases h0 : t.val % 8 = 0
  · -- a first tile: the scratch row restarts
    have hF : firstTile (grid0.coords t) := (firstTile_iff t).mpr h0
    have hL : ¬laterTile (grid0.coords t) := fun h => (laterTile_iff t).mp h h0
    have hE : ¬lastTile (grid0.coords t) := fun h => by have := (lastTile_iff t).mp h; omega
    rw [leaves_col_idle m c t hE, colAcc_first m c t h0]
    by_cases hz : t.val = 0
    · rw [carried_castSucc m c t, carried_zero m c _ _ hz, regionInv_eq]
      iintro ⟨⟨HS, Hg⟩, Ho, ⟨%d0, H0⟩, ⟨%d1, H1⟩, ⟨%d2, H2⟩, ⟨%d3, H3⟩⟩
      iapply (run_first c (grid0.coords t) (aBuf t) (aWhole t) (bBuf t) (bWhole t) (rowBuf t) (rowWhole t) (colBuf t) (colWhole t) accBuf (Memref.isWhole_whole _) hF hL hE (iblk m c 0 t) (iblk m c 1 t) ((dats m 0 c).before 3 t d3) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [carried_castSucc m c t, carried_pos m c _ _ hz]
      iintro ⟨⟨HS, Hg⟩, Ho, ⟨%d0, H0⟩, ⟨%d1, H1⟩, ⟨%d2, H2⟩, ⟨%d3, H3⟩⟩
      iapply (run_first c (grid0.coords t) (aBuf t) (aWhole t) (bBuf t) (bWhole t) (rowBuf t) (rowWhole t) (colBuf t) (colWhole t) accBuf (Memref.isWhole_whole _) hF hL hE (iblk m c 0 t) (iblk m c 1 t) ((dats m 0 c).before 3 t d3) Set.univ _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hF : ¬firstTile (grid0.coords t) := fun h => h0 ((firstTile_iff t).mp h)
    have hL : laterTile (grid0.coords t) := (laterTile_iff t).mpr h0
    have hz : t.val ≠ 0 := fun h => h0 (by rw [h])
    rw [carried_castSucc m c t, carried_pos m c _ _ hz, colAcc_later m c t h0]
    by_cases h7 : t.val % 8 = 7
    · -- the last tile of a batch: the lowered row is also copied out
      have hE : lastTile (grid0.coords t) := (lastTile_iff t).mpr h7
      rw [leaves_col_last m c t hE, colAcc_later m c t h0]
      iintro ⟨⟨HS, Hg⟩, Ho, ⟨%d0, H0⟩, ⟨%d1, H1⟩, ⟨%d2, H2⟩, ⟨%d3, H3⟩⟩
      iapply (run_last c (grid0.coords t) (aBuf t) (aWhole t) (bBuf t) (bWhole t) (rowBuf t) (rowWhole t) (colBuf t) (colWhole t) accBuf (Memref.isWhole_whole _) hF hL hE (iblk m c 0 t) (iblk m c 1 t) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a later tile inside a batch: the row is lowered
      have hE : ¬lastTile (grid0.coords t) := fun h => h7 ((lastTile_iff t).mp h)
      rw [leaves_col_idle m c t hE]
      iintro ⟨⟨HS, Hg⟩, Ho, ⟨%d0, H0⟩, ⟨%d1, H1⟩, ⟨%d2, H2⟩, ⟨%d3, H3⟩⟩
      iapply (run_later c (grid0.coords t) (aBuf t) (aWhole t) (bBuf t) (bWhole t) (rowBuf t) (rowWhole t) (colBuf t) (colWhole t) accBuf (Memref.isWhole_whole _) hF hL hE (iblk m c 0 t) (iblk m c 1 t) ((dats m 0 c).before 3 t d3) (colAcc m c (t.val - 1) (Nat.lt_of_le_of_lt (Nat.sub_le _ _) t.isLt)) Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the scratch row's contents are forgotten again. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = carried m c (Fin.last cfg0.N).val (Nat.le_of_lt_succ (Fin.last cfg0.N).isLt) from rfl,
    carried_pos m c _ _ hN, regionInv_eq]
  iintro ⟨HS, Hg⟩
  isplitl [HS]
  · iexists _; iexact HS
  iexact Hg

end Cert.KernelIdeal.Tile

end
-- ==== Proof.KI.Frame.lean ====
/-
  The run of the whole program: the transposition of the second cloud, the pipelined region over the 256 points
  with the proof data of the previous modules, and the host lines that follow. Every weakly fair execution ends
  with each array of the pipeline at what the proof data computes (the row minima written back point by point,
  the column minima written back once per batch) and every other buffer as the later host lines leave it; read
  at the four argument arrays this is the frame claim.
-/
import proofs.«143655_j62749472194941_1_alg».proof.Proof.KI.Body

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hin := hin m) (hout := hout m)

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Tile

end
-- ==== Proof.KI.Blocks.lean ====
/-
  The staged blocks as entries of the argument arrays. Point t works on batch t / 8 and row tile t % 8. The tile of
  the first cloud staged at t is rows 256 · (t % 8), …, 256 · (t % 8) + 255 of batch t / 8 of the first argument.
  The second operand of the region is the second argument with its last two axes swapped by a host operation made
  before the region, so the block staged at t, at (k, q), is the second argument's batch t / 8 at point q,
  coordinate k. The same offsets place the two output blocks: rows 256 · (t % 8) … of batch t / 8 for the row minima,
  the whole row of batch t / 8 for the column minima.
-/
import proofs.«143655_j62749472194941_1_alg».proof.Proof.KI.Setup
import Idealize.ShloMosaic.Lib.ValueLayout
import Idealize.ShloMosaic.Lib.Pipeline.Value
import Idealize.ShloMosaic.Lib.StableHlo.Run

set_option maxRecDepth 16384

noncomputable section

namespace Cert.KernelIdeal.Tile

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ)

/-! ## The block index of each window at a point, decided over the grid -/

theorem idx_a : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx_b : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx_row : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem idx_col : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-! ## The input blocks -/

/-- The staged tile of the first cloud at point t, at y, is the first argument at batch t / 8, row
    256 · (t % 8) + y₁, coordinate y₂. -/
theorem aBlk_apply (c : Dev nD) (t : Fin cfg0.N) (y : S1x256x3.Idx) (i : S32x2048x3.Idx)
    (h0 : (i 0).val = t.val / 8) (h1 : (i 1).val = 256 * (t.val % 8) + (y 1).val) (h2 : (i 2).val = (y 2).val) :
    (iblk m c 0 t : Vec F S1x256x3 .f32) y = (m ((c : Thread nD τ).loc main_arg0) : S32x2048x3.Idx → Elt F .f32) i := by
  obtain ⟨e0, e1, e2⟩ := idx_a t
  have hy0 : (y 0).val < 1 := (y 0).isLt
  unfold iblk
  rw [View.read_apply]
  show V m c main_arg0 _ = _
  rw [V_main_arg0]
  refine congrArg (m ((c : Thread nD τ).loc main_arg0) : S32x2048x3.Idx → Elt F .f32) (funext fun a => Fin.ext ?_)
  match a with
  | ⟨0, _⟩ => show win0_0.index t 0 * 1 + 1 * (y 0).val = (i 0).val; rw [e0, h0]; omega
  | ⟨1, _⟩ => show win0_0.index t 1 * 256 + 1 * (y 1).val = (i 1).val; rw [e1, h1]; omega
  | ⟨2, _⟩ => show win0_0.index t 2 * 3 + 1 * (y 2).val = (i 2).val; rw [e2, h2]; omega

/-- The region's second operand is the second argument with its last two axes swapped. -/
theorem V_bt (c : Dev nD) :
    (V m c main_v0 : S32x3x2048.Idx → Elt F .f32)
      = transpose S32x3x2048 [0, 2, 1] (m ((c : Thread nD τ).loc main_arg1) : S32x2048x3.Idx → Elt F .f32) transposes_S32x2048x3_S32x3x2048_0_2_1 := by
  show StableHlo.after hostOps0 (fun b => m (c, b)) (Proc.devRef .tc main_v0) = _
  after_results

/-- The staged second cloud at point t, at y, is the second argument at batch t / 8, point y₂, coordinate y₁. -/
theorem bBlk_apply (c : Dev nD) (t : Fin cfg0.N) (y : S1x3x2048.Idx) (i : S32x2048x3.Idx)
    (h0 : (i 0).val = t.val / 8) (h1 : (i 1).val = (y 2).val) (h2 : (i 2).val = (y 1).val) :
    (iblk m c 1 t : Vec F S1x3x2048 .f32) y = (m ((c : Thread nD τ).loc main_arg1) : S32x2048x3.Idx → Elt F .f32) i := by
  obtain ⟨e0, e1, e2⟩ := idx_b t
  have hy0 : (y 0).val < 1 := (y 0).isLt
  unfold iblk
  rw [View.read_apply]
  show V m c main_v0 _ = _
  rw [V_bt]
  refine transpose_apply _ _ _ _ i fun b => ?_
  match b with
  | ⟨0, _⟩ => show (i 0).val = win0_1.index t 0 * 1 + 1 * (y 0).val; rw [e0, h0]; omega
  | ⟨1, _⟩ => show (i 2).val = win0_1.index t 1 * 3 + 1 * (y 1).val; rw [e1, h2]; omega
  | ⟨2, _⟩ => show (i 1).val = win0_1.index t 2 * 2048 + 1 * (y 2).val; rw [e2, h1]; omega

end Cert.KernelIdeal.Tile

end
-- ==== Proof.Dist.lean ====
/-
  Squared distances between two clouds of 2048 points in 3-space, 32 batches, and their nearest-neighbour minima.

  Both programs form the squared distance of point n of the first cloud and point m of the second, in batch b, as
  (|x_n|² + |y_m|²) − 2 · (x_n · y_m), each of the three terms a sum over the 3 coordinates; the row minimum takes the
  least of these over m, the column minimum the least over n, both starting from the word of +∞.

  The kernel sees the first cloud 256 points at a time. On one staged tile the same formula, read through the tile's
  own indices, is the squared distance at the tile's rows (`tile_eq_sq`). A column minimum can be taken tile by tile:
  a value that is the least of +∞ and the distances to the first R points, lowered by the column minimum of the next
  256 points, is the least of +∞ and the distances to the first R + 256 points (`IsColMinBelow.step`), and once all
  2048 points are in it is the column minimum (`IsColMinBelow.eq_colMin`). This is the only law joining the two
  programs, and it is the universal property of `min`: c ≤ min a b exactly when c ≤ a and c ≤ b.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- A cloud: 32 batches of 2048 points with 3 coordinates, over the extended reals. -/
abbrev Cloud : Type := (⟨3, ![32, 2048, 3]⟩ : Shape).Idx → EReal
/-- A staged tile of the first cloud (256 points) and a staged second cloud with the coordinate axis first. -/
abbrev TileA : Type := (⟨3, ![1, 256, 3]⟩ : Shape).Idx → EReal
abbrev TileB : Type := (⟨3, ![1, 3, 2048]⟩ : Shape).Idx → EReal

/-- The value both minima start from (the word of +∞) and the factor of the cross term (the word of 2); neither is
    ever evaluated: the same word stands on both sides. -/
abbrev top : EReal := Ideal.ofBits .f32 0x7F800000#32
abbrev two : EReal := Ideal.ofBits .f32 0x40000000#32

/-- The squared distance of point n of x and point m of y in batch b, as both programs form it. -/
def sq (x y : Cloud) (b : Fin 32) (n m : Fin 2048) : EReal :=
  ((∑ k : Fin 3, x (ix3 b n k) * x (ix3 b n k)) + (∑ k : Fin 3, y (ix3 b m k) * y (ix3 b m k)))
    - two * (∑ k : Fin 3, x (ix3 b n k) * y (ix3 b m k))

/-- The least squared distance from point n of x to the points of y. -/
def rowMin (x y : Cloud) (b : Fin 32) (n : Fin 2048) : EReal :=
  (Finset.univ : Finset (Fin 2048)).fold min top (fun m => sq x y b n m)

/-- The least squared distance from point m of y to the points of x. -/
def colMin (x y : Cloud) (b : Fin 32) (m : Fin 2048) : EReal :=
  (Finset.univ : Finset (Fin 2048)).fold min top (fun n => sq x y b n m)

/-- The same formula on one staged tile: row r of the tile against column q of the staged second cloud. -/
def tile (A : TileA) (B : TileB) (r : Fin 256) (q : Fin 2048) : EReal :=
  ((∑ k : Fin 3, A (ix3 (0 : Fin 1) r k) * A (ix3 (0 : Fin 1) r k)) + (∑ k : Fin 3, B (ix3 (0 : Fin 1) k q) * B (ix3 (0 : Fin 1) k q)))
    - two * (∑ k : Fin 3, A (ix3 (0 : Fin 1) r k) * B (ix3 (0 : Fin 1) k q))

/-- A tile holding rows o, …, o + 255 of batch b of x, against the second cloud of batch b with its axes swapped,
    gives the squared distances of those rows. -/
theorem tile_eq_sq (x y : Cloud) (b : Fin 32) (o : ℕ) (ho : o + 256 ≤ 2048) (A : TileA) (B : TileB)
    (hA : ∀ (r : Fin 256) (k : Fin 3), A (ix3 (0 : Fin 1) r k) = x (ix3 b ⟨o + r.val, by omega⟩ k))
    (hB : ∀ (k : Fin 3) (q : Fin 2048), B (ix3 (0 : Fin 1) k q) = y (ix3 b q k)) (r : Fin 256) (q : Fin 2048) :
    tile A B r q = sq x y b ⟨o + r.val, by omega⟩ q := by
  unfold tile sq
  simp only [hA, hB]

/-- v is the least of the start value and the squared distances from point m of y to the first R points of x. -/
def IsColMinBelow (x y : Cloud) (b : Fin 32) (m : Fin 2048) (R : ℕ) (v : EReal) : Prop :=
  ∀ c : EReal, c ≤ v ↔ c ≤ top ∧ ∀ n : Fin 2048, n.val < R → c ≤ sq x y b n m

/-- The column minimum of the first 256 points. -/
theorem IsColMinBelow.first (x y : Cloud) (b : Fin 32) (m : Fin 2048) (f : Fin 256 → EReal)
    (hf : ∀ r : Fin 256, f r = sq x y b ⟨r.val, by omega⟩ m) :
    IsColMinBelow x y b m 256 ((Finset.univ : Finset (Fin 256)).fold min top f) := by
  intro c
  rw [Finset.le_fold_min]
  refine and_congr Iff.rfl ⟨fun h n hn => ?_, fun h r _ => ?_⟩
  · have h' := h ⟨n.val, hn⟩ (Finset.mem_univ _)
    rw [hf] at h'
    exact h'
  · rw [hf]; exact h _ r.isLt

/-- The same with the tile's rows written from an offset that is 0 (the first tile of a batch). -/
theorem IsColMinBelow.first_at (x y : Cloud) (b : Fin 32) (m : Fin 2048) (o : ℕ) (ho0 : o = 0) (f : Fin 256 → EReal)
    (hf : ∀ r : Fin 256, f r = sq x y b ⟨o + r.val, by omega⟩ m) :
    IsColMinBelow x y b m (o + 256) ((Finset.univ : Finset (Fin 256)).fold min top f) := by
  intro c
  rw [Finset.le_fold_min]
  refine and_congr Iff.rfl ⟨fun h n hn => ?_, fun h r _ => ?_⟩
  · have h' := h ⟨n.val - o, by omega⟩ (Finset.mem_univ _)
    rw [hf] at h'
    have e : (⟨o + (n.val - o), by omega⟩ : Fin 2048) = n := Fin.ext (by show o + (n.val - o) = n.val; omega)
    exact (congrArg (fun n' => c ≤ sq x y b n' m) e).mp h'
  · rw [hf]; exact h _ (by show o + r.val < o + 256; have := r.isLt; omega)

/-- Lowering by the column minimum of the next 256 points. -/
theorem IsColMinBelow.step (x y : Cloud) (b : Fin 32) (m : Fin 2048) (o : ℕ) (ho : o + 256 ≤ 2048) (v : EReal)
    (hv : IsColMinBelow x y b m o v) (f : Fin 256 → EReal)
    (hf : ∀ r : Fin 256, f r = sq x y b ⟨o + r.val, by omega⟩ m) :
    IsColMinBelow x y b m (o + 256) (min v ((Finset.univ : Finset (Fin 256)).fold min top f)) := by
  intro c
  rw [le_min_iff, hv c, Finset.le_fold_min]
  constructor
  · rintro ⟨⟨ht, h1⟩, -, h2⟩
    refine ⟨ht, fun n hn => ?_⟩
    by_cases hlt : n.val < o
    · exact h1 n hlt
    · have h' := h2 ⟨n.val - o, by omega⟩ (Finset.mem_univ _)
      rw [hf] at h'
      have e : (⟨o + (n.val - o), by omega⟩ : Fin 2048) = n := Fin.ext (by show o + (n.val - o) = n.val; omega)
      exact (congrArg (fun n' => c ≤ sq x y b n' m) e).mp h'
  · rintro ⟨ht, h⟩
    refine ⟨⟨ht, fun n hn => h n (by omega)⟩, ht, fun r _ => ?_⟩
    rw [hf]; exact h _ (by show o + r.val < o + 256; have := r.isLt; omega)

/-- With all 2048 points in, the value is the column minimum. -/
theorem IsColMinBelow.eq_colMin (x y : Cloud) (b : Fin 32) (m : Fin 2048) (v : EReal)
    (hv : IsColMinBelow x y b m 2048 v) : v = colMin x y b m := by
  refine eq_of_forall_le_iff fun c => (hv c).trans ?_
  unfold colMin
  rw [Finset.le_fold_min]
  exact and_congr Iff.rfl ⟨fun h n _ => h n n.isLt, fun h n _ => h n (Finset.mem_univ _)⟩

/-- The row minimum of a tile row is the row minimum of the cloud's row it holds. -/
theorem rowMin_of_tile (x y : Cloud) (b : Fin 32) (n : Fin 2048) (f : Fin 2048 → EReal) (hf : ∀ q, f q = sq x y b n q) :
    (Finset.univ : Finset (Fin 2048)).fold min top f = rowMin x y b n := by
  unfold rowMin
  exact congrArg (fun g => (Finset.univ : Finset (Fin 2048)).fold min top g) (funext hf)

end Cert.Chamfer

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.LibLaneFolds.lean ====
/-
  Lane reductions of a matrix, and reshapes that drop a unit axis, read at an entry given by coordinates.

  A sum along the rows (or down the columns) of an a × b matrix of extended reals, started from the zero word, is at
  row r (column q) the finite sum of that row (column). A minimum along the rows (down the columns), started from
  the word of +∞, is the fold of `min` from that word over the row (column): reductions by a commutative,
  associative operation may be taken over the reduced axis's coordinates in any order. An a × b × 1 array reshaped to
  a × b reads at (i, j) the array at (i, j, 0), and an a × 1 × b array at (i, 0, j), since the row-major positions
  agree. Each lemma is stated at indices built by the coordinate constructors, so it applies to a printed operation
  by unification at any extents; the reductions take the printed side conditions as arguments, so that they are used
  in term mode (`refine (lemma …).trans ?_`).
-/
import Idealize.ShloMosaic.PureOps.Ideal.Laws
import Idealize.ShloMosaic.Lib.ValueIdx
import Idealize.ShloMosaic.Lib.Pipeline.Value

noncomputable section

open scoped BigOperators

namespace Cert.Lib.LaneFolds

open Idealize.ShloMosaic Idealize.ShloMosaic.ValueIdx

/-- The sum along the rows of an a × b matrix, at row r. -/
theorem sumLast_apply {a b : ℕ} (src : FVec Ideal (⟨2, ![a, b]⟩ : Shape) .f32) (acc : BitVec 32)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ k : Fin b, src (ix2 r k) := by
  rw [Ideal.multiReduction_add_single]
  have e : ∀ k : Fin b, h.lift (ix1 r) k = ix2 r k := fun k => funext fun ax => Fin.ext (match ax with | ⟨0, _⟩ => rfl | ⟨1, _⟩ => rfl)
  exact Finset.sum_congr rfl fun k _ => congrArg src (e k)

/-- The sum down the columns of an a × b matrix, at column q. -/
theorem sumFirst_apply {a b : ℕ} (src : FVec Ideal (⟨2, ![a, b]⟩ : Shape) .f32) (acc : BitVec 32)
    (h : (⟨2, ![a, b]⟩ : Shape).Reduces [0] ⟨1, ![b]⟩) (hφ : FKind.Formats .f32) (hacc : acc = FKind.add.neutral .f32 hφ) (q : Fin b) :
    multiReduction .add [0] ⟨1, ![b]⟩ src acc h hφ hacc (ix1 q) = ∑ k : Fin a, src (ix2 k q) := by
  rw [Ideal.multiReduction_add_single]
  have e : ∀ k : Fin a, h.lift (ix1 q) k = ix2 k q := fun k => funext fun ax => Fin.ext (match ax with | ⟨0, _⟩ => rfl | ⟨1, _⟩ => rfl)
  exact Finset.sum_congr rfl fun k _ => congrArg src (e k)

/-- The minimum along the rows, from the word of +∞, at row r. -/
theorem minLast_apply {a b : ℕ} (src : FVec Ideal (⟨2, ![a, b]⟩ : Shape) .f32)
    (h : (⟨2, ![a, b]⟩ : Shape).Reduces [1] ⟨1, ![a]⟩) (hφ : FKind.Formats .f32) (hacc : (0x7F800000#32 : BitVec 32) = FKind.minimumf.neutral .f32 hφ) (r : Fin a) :
    multiReduction .minimumf [1] ⟨1, ![a]⟩ src 0x7F800000#32 h hφ hacc (ix1 r)
      = (Finset.univ : Finset (Fin b)).fold min (Ideal.ofBits .f32 0x7F800000#32) (fun q => src (ix2 r q)) := by
  rw [multiReduction_minimumf_eq_fold]
  refine (h.fold_filter_drop_single _ _ src (ix1 r)).trans ?_
  have e : ∀ q : Fin b, h.lift (ix1 r) q = ix2 r q := fun q => funext fun ax => Fin.ext (match ax with | ⟨0, _⟩ => rfl | ⟨1, _⟩ => rfl)
  exact congrArg (fun g => (Finset.univ : Finset (Fin b)).fold min (Ideal.ofBits .f32 0x7F800000#32) g) (funext fun q => congrArg src (e q))

/-- The minimum down the columns, from the word of +∞, at column q. -/
theorem minFirst_apply {a b : ℕ} (src : FVec Ideal (⟨2, ![a, b]⟩ : Shape) .f32)
    (h : (⟨2, ![a, b]⟩ : Shape).Reduces [0] ⟨1, ![b]⟩) (hφ : FKind.Formats .f32) (hacc : (0x7F800000#32 : BitVec 32) = FKind.minimumf.neutral .f32 hφ) (q : Fin b) :
    multiReduction .minimumf [0] ⟨1, ![b]⟩ src 0x7F800000#32 h hφ hacc (ix1 q)
      = (Finset.univ : Finset (Fin a)).fold min (Ideal.ofBits .f32 0x7F800000#32) (fun r => src (ix2 r q)) := by
  rw [multiReduction_minimumf_eq_fold]
  refine (h.fold_filter_drop_single _ _ src (ix1 q)).trans ?_
  have e : ∀ r : Fin a, h.lift (ix1 q) r = ix2 r q := fun r => funext fun ax => Fin.ext (match ax with | ⟨0, _⟩ => rfl | ⟨1, _⟩ => rfl)
  exact congrArg (fun g => (Finset.univ : Finset (Fin a)).fold min (Ideal.ofBits .f32 0x7F800000#32) g) (funext fun r => congrArg src (e r))

/-- An a × b × 1 array reshaped to a × b reads, at (i, j), the array at (i, j, 0). -/
theorem dropLast_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An a × 1 × b array reshaped to a × b reads, at (i, j), the array at (i, 0, j). -/
theorem dropMid_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.LaneFolds

end
-- ==== Proof.KI.TileValue.lean ====
/-
  The body's arithmetic read entry by entry over the extended reals.

  On a staged tile A (256 points of the first cloud) and a staged second cloud B (coordinate axis first) the body
  forms, at row r and column q, (∑ₖ A r k · A r k + ∑ₖ B k q · B k q) − 2 · ∑ₖ A r k · B k q: the two squared norms
  are lane sums kept as a column and as a row and spread over the tile, the cross term is the block product of the
  two operands after a change of float format, which at the extended reals changes nothing. The row-minimum payload
  is the least of +∞ and a row of that tile; the column-minimum payload the least of +∞ and a column of it; the
  scratch row is reset to the column minima or lowered by them entrywise, and is copied out unchanged.
-/
import proofs.«143655_j62749472194941_1_alg».proof.Proof.Gen.KernelIdeal.Skeleton
import proofs.«143655_j62749472194941_1_alg».proof.Proof.Dist
import proofs.«143655_j62749472194941_1_alg».proof.Proof.LibKeepdims
import proofs.«143655_j62749472194941_1_alg».proof.Proof.LibPlainDot
import proofs.«143655_j62749472194941_1_alg».proof.Proof.LibLaneFolds
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Cert.Chamfer Cert.Lib.LaneFolds
open Idealize.ShloMosaic Idealize.ShloMosaic.ValueIdx

/-! ## The distance tile -/

/-- The staged tile with its unit axis dropped, at (r, k); the staged second cloud likewise, at (k, q). -/
theorem aRow (A : Vec Ideal S1x256x3 .f32) (r : Fin 256) (k : Fin 3) :
    shapeCast S256x3 A shapeCasts_S1x256x3_S256x3 (ix2 r k) = A (ix3 (0 : Fin 1) r k) :=
  shapeCast_1ab_ab_apply A _ r k
theorem bCol (B : Vec Ideal S1x3x2048 .f32) (k : Fin 3) (q : Fin 2048) :
    shapeCast S3x2048 B shapeCasts_S1x3x2048_S3x2048 (ix2 k q) = B (ix3 (0 : Fin 1) k q) :=
  shapeCast_1ab_ab_apply B _ k q

/-- THE TILE: the payload of squared distances, at row r and column q, is the specification's tile formula. -/
theorem pay2_apply (A : Vec Ideal S1x256x3 .f32) (B : Vec Ideal S1x3x2048 .f32) (r : Fin 256) (q : Fin 2048) :
    k0_pay2 (F := Ideal) A B (ix2 r q) = tile A B r q := by
  unfold k0_pay2 tile
  dsimp only
  rw [subf_apply, addf_apply, mulf_apply, broadcast_apply,
    Cert.Lib.Keepdims.broadcastTo_a1_ab_apply, Cert.Lib.Keepdims.shapeCast_a_a1_apply,
    broadcastTo_1b_ab_apply, shapeCast_a_1a_apply]
  refine congrArg₂ (· - ·) (congrArg₂ (· + ·) ?_ ?_) (congrArg₂ (· * ·) rfl ?_)
  · -- the squared norm of row r of the tile
    refine (sumLast_apply _ _ reduces_S256x3_S256 (.inl rfl) rfl r).trans ?_
    exact Finset.sum_congr rfl fun k _ => by rw [mulf_apply, aRow]
  · -- the squared norm of column q of the staged second cloud
    refine (sumFirst_apply _ _ reduces_S3x2048_S2048 (.inl rfl) rfl q).trans ?_
    exact Finset.sum_congr rfl fun k _ => by rw [mulf_apply, bCol]
  · -- the cross term: the block product into a zero accumulator; the change of format is the identity
    refine (Ideal.matmul_constant_zero_apply dot_S256x3_S3x2048_S256x2048_1_0_0_1_n_n none _ _ (ix2 r q)).trans ?_
    refine (Cert.LibPlainDot.plain_sum dot_S256x3_S3x2048_S256x2048_1_0_0_1_n_n rfl rfl rfl rfl rfl rfl _ _ r q).trans ?_
    exact Finset.sum_congr rfl fun k _ => by rw [truncf_apply, truncf_apply, aRow, bCol]

/-- The row-minimum payload at row r: the least of +∞ and row r of the tile. -/
theorem pay3_apply (A : Vec Ideal S1x256x3 .f32) (B : Vec Ideal S1x3x2048 .f32) (u : Fin 1) (r : Fin 256) (u' : Fin 1) :
    k0_pay3 (F := Ideal) A B (ix3 u r u') = (Finset.univ : Finset (Fin 2048)).fold min top (fun q => tile A B r q) := by
  unfold k0_pay3
  dsimp only
  refine (shapeCast_ab_1ab_apply _ _ u r u').trans ?_
  refine (Cert.Lib.Keepdims.shapeCast_a_a1_apply _ _ r u').trans ?_
  refine (minLast_apply _ reduces_S256x2048_S256 (.inl rfl) rfl r).trans ?_
  exact congrArg (fun g => (Finset.univ : Finset (Fin 2048)).fold min top g) (funext fun q => pay2_apply A B r q)

/-- The column-minimum payload at column q: the least of +∞ and column q of the tile. -/
theorem pay4_apply (A : Vec Ideal S1x256x3 .f32) (B : Vec Ideal S1x3x2048 .f32) (u : Fin 1) (q : Fin 2048) :
    k0_pay4 (F := Ideal) A B (ix2 u q) = (Finset.univ : Finset (Fin 256)).fold min top (fun r => tile A B r q) := by
  unfold k0_pay4
  dsimp only
  refine (shapeCast_a_1a_apply _ _ u q).trans ?_
  refine (minFirst_apply _ reduces_S256x2048_S2048 (.inl rfl) rfl q).trans ?_
  exact congrArg (fun g => (Finset.univ : Finset (Fin 256)).fold min top g) (funext fun r => pay2_apply A B r q)

/-- The reset value of the scratch row is the column-minimum payload. -/
theorem pay5_eq (A : Vec Ideal S1x256x3 .f32) (B : Vec Ideal S1x3x2048 .f32) : k0_pay5 (F := Ideal) A B = k0_pay4 (F := Ideal) A B := by
  unfold k0_pay5; exact shapeCast_self _ _

/-- The lowered scratch row, entry by entry: the smaller of what it held and the column-minimum payload. -/
theorem pay6_apply (A : Vec Ideal S1x256x3 .f32) (B : Vec Ideal S1x3x2048 .f32) (s : Vec Ideal S1x2048 .f32) (j : S1x2048.Idx) :
    k0_pay6 (F := Ideal) A B s j = min (s j) (k0_pay4 (F := Ideal) A B j) := by
  unfold k0_pay6; rw [shapeCast_self]; rfl

/-- The copy-out: the scratch row as a 1 × 1 × 2048 block. -/
theorem pay1_apply (s : Vec Ideal S1x2048 .f32) (u u' : Fin 1) (q : Fin 2048) :
    k0_pay1 (F := Ideal) s (ix3 u u' q) = s (ix2 u' q) := by
  unfold k0_pay1
  exact shapeCast_ab_1ab_apply s _ u u' q

end Cert.KernelIdeal.TileValue

end
-- ==== Proof.KI.Acc.lean ====
/-
  The running column minimum, read at an entry. Point t belongs to batch t / 8 and stages rows
  256 · (t % 8), …, 256 · (t % 8) + 255 of the first cloud. After point t the scratch row's entry q is the least of
  +∞ and the squared distances from point q of the second cloud to rows 0, …, 256 · (t % 8) + 255 of the first, in
  batch t / 8: on a first tile it is the tile's own column minimum; on a later tile the previous point (same batch,
  the rows just below) is lowered by the tile's column minimum. After the last tile of a batch all 2048 rows are
  in, and the entry is the column minimum.
-/
import proofs.«143655_j62749472194941_1_alg».proof.Proof.KI.Data
import proofs.«143655_j62749472194941_1_alg».proof.Proof.KI.Blocks
import proofs.«143655_j62749472194941_1_alg».proof.Proof.KI.TileValue

set_option maxRecDepth 16384

noncomputable section

namespace Cert.KernelIdeal.Tile

open Cert.KernelIdeal Cert.KernelIdeal.Gen Cert.KernelIdeal.TileValue Cert.Chamfer
open Idealize.ShloMosaic Idealize.ShloMosaic.TcCoe Idealize.ShloMosaic.ValueIdx
open Idealize.SL.Sem

variable (m : (ℓ : Loc nD τ sig) → Buf (Elt Ideal) ℓ)

/-- The two clouds as the program is launched with them. -/
abbrev cloudX (c : Dev nD) : Cloud := (m ((c : Thread nD τ).loc main_arg0) : S32x2048x3.Idx → Elt Ideal .f32)
abbrev cloudY (c : Dev nD) : Cloud := (m ((c : Thread nD τ).loc main_arg1) : S32x2048x3.Idx → Elt Ideal .f32)

/-- The batch of a point and the first row it stages. -/
def batchOf (t : Fin cfg0.N) : Fin 32 := ⟨t.val / 8, by have h : cfg0.N = 256 := N_0; have := t.isLt; omega⟩
abbrev rowOff (t : Fin cfg0.N) : ℕ := 256 * (t.val % 8)
theorem rowOff_le (t : Fin cfg0.N) : rowOff t + 256 ≤ 2048 := by unfold rowOff; omega
/-- Row r of the tile staged at t, as a row of the cloud. -/
def rowOf (t : Fin cfg0.N) (r : Fin 256) : Fin 2048 := ⟨rowOff t + r.val, by have := rowOff_le t; have := r.isLt; omega⟩

/-- The distance tile of the blocks staged at t is the squared distances of rows 256 · (t % 8) + r of batch t / 8. -/
theorem tile_at (c : Dev nD) (t : Fin cfg0.N) (r : Fin 256) (q : Fin 2048) :
    tile (iblk m c 0 t : Vec Ideal S1x256x3 .f32) (iblk m c 1 t : Vec Ideal S1x3x2048 .f32) r q
      = sq (cloudX m c) (cloudY m c) (batchOf t) (rowOf t r) q :=
  tile_eq_sq (cloudX m c) (cloudY m c) (batchOf t) (rowOff t) (rowOff_le t) _ _
    (fun r k => aBlk_apply m c t (ix3 (0 : Fin 1) r k) (ix3 (batchOf t) (rowOf t r) k) rfl rfl rfl)
    (fun k q => bBlk_apply m c t (ix3 (0 : Fin 1) k q) (ix3 (batchOf t) q k) rfl rfl rfl) r q

/-- The column minimum of the tile staged at t, at column q. -/
theorem tileCol_at (c : Dev nD) (t : Fin cfg0.N) (u : Fin 1) (q : Fin 2048) :
    k0_pay4 (F := Ideal) (aBlk m c t) (bBlk m c t) (ix2 u q)
      = (Finset.univ : Finset (Fin 256)).fold min top (fun r => sq (cloudX m c) (cloudY m c) (batchOf t) (rowOf t r) q) := by
  rw [pay4_apply]
  exact congrArg (fun g => (Finset.univ : Finset (Fin 256)).fold min top g) (funext fun r => tile_at m c t r q)

/-- THE INVARIANT of the running column minimum. -/
theorem colAcc_isMin (c : Dev nD) : ∀ (n : ℕ) (hn : n < cfg0.N) (q : Fin 2048),
    IsColMinBelow (cloudX m c) (cloudY m c) (batchOf ⟨n, hn⟩) q (rowOff ⟨n, hn⟩ + 256) (colAcc m c n hn (ix2 (0 : Fin 1) q)) := by
  intro n
  induction n with
  | zero =>
    intro hn q
    rw [colAcc_first m c ⟨0, hn⟩ rfl, pay5_eq, tileCol_at]
    exact IsColMinBelow.first_at _ _ _ q (rowOff ⟨0, hn⟩) rfl _ (fun r => rfl)
  | succ n ih =>
    intro hn q
    by_cases h : (n + 1) % 8 = 0
    · rw [colAcc_first m c ⟨n + 1, hn⟩ h, pay5_eq, tileCol_at]
      exact IsColMinBelow.first_at _ _ _ q (rowOff ⟨n + 1, hn⟩) (by show 256 * ((n + 1) % 8) = 0; omega) _ (fun r => rfl)
    · have hn' : n < cfg0.N := Nat.lt_of_succ_lt hn
      have hb : batchOf ⟨n, hn'⟩ = batchOf ⟨n + 1, hn⟩ := Fin.ext (by show n / 8 = (n + 1) / 8; omega)
      have ho : rowOff ⟨n, hn'⟩ + 256 = rowOff ⟨n + 1, hn⟩ := by show 256 * (n % 8) + 256 = 256 * ((n + 1) % 8); omega
      have ih' := ih hn' q
      rw [hb, ho] at ih'
      rw [colAcc_later m c ⟨n + 1, hn⟩ h, pay6_apply, tileCol_at]
      exact IsColMinBelow.step _ _ _ q (rowOff ⟨n + 1, hn⟩) (rowOff_le _) _ ih' _ (fun r => rfl)

/-- After the last tile of a batch the scratch row holds the column minima of the batch. -/
theorem colAcc_last (c : Dev nD) (t : Fin cfg0.N) (h7 : t.val % 8 = 7) (q : Fin 2048) :
    colAcc m c t.val t.isLt (ix2 (0 : Fin 1) q) = colMin (cloudX m c) (cloudY m c) (batchOf t) q := by
  have h := colAcc_isMin m c t.val t.isLt q
  have e : rowOff t + 256 = 2048 := by show 256 * (t.val % 8) + 256 = 2048; omega
  rw [e] at h
  exact IsColMinBelow.eq_colMin _ _ _ q _ h

/-- The row-minimum payload of the blocks staged at t, at row r: the row minimum of the cloud's row. -/
theorem tileRow_at (c : Dev nD) (t : Fin cfg0.N) (u : Fin 1) (r : Fin 256) (u' : Fin 1) :
    k0_pay3 (F := Ideal) (aBlk m c t) (bBlk m c t) (ix3 u r u') = rowMin (cloudX m c) (cloudY m c) (batchOf t) (rowOf t r) := by
  rw [pay3_apply]
  exact rowMin_of_tile _ _ _ _ _ (fun q => tile_at m c t r q)

end Cert.KernelIdeal.Tile

end
-- ==== Proof.KI.Arrays.lean ====
/-
  The two result arrays of the region after the run. The row-minimum window writes its block back at every point,
  and block t is rows 256 · (t % 8) … of batch t / 8; the column-minimum window writes back once per batch, on the last
  tile, the whole row of batch t / 8. Each write-back is the matching block of one function of the two clouds (the row
  minima, the column minima), and the blocks cover the arrays, so after the run the arrays hold those functions.
-/
import proofs.«143655_j62749472194941_1_alg».proof.Proof.KI.Acc

set_option maxRecDepth 16384

noncomputable section

namespace Cert.KernelIdeal.Tile

open Cert.KernelIdeal Cert.KernelIdeal.Gen Cert.KernelIdeal.TileValue Cert.Chamfer
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The array of row minima, 32 × 2048 × 1, and of column minima, 32 × 1 × 2048. -/
def rowArr (c : Dev nD) : Buf (Elt Ideal) ((c : Thread nD τ).loc main_v1_0) :=
  fun i => rowMin (cloudX m c) (cloudY m c) (i 0) (i 1)
def colArr (c : Dev nD) : Buf (Elt Ideal) ((c : Thread nD τ).loc main_v1_1) :=
  fun i => colMin (cloudX m c) (cloudY m c) (i 0) (i 2)

theorem rowArr_apply (c : Dev nD) (i : S32x2048x1.Idx) (b : Fin 32) (n : Fin 2048) (hb : (i 0).val = b.val) (hn : (i 1).val = n.val) :
    rowArr m c i = rowMin (cloudX m c) (cloudY m c) b n := by
  unfold rowArr
  exact congrArg₂ (rowMin (cloudX m c) (cloudY m c)) (Fin.ext hb) (Fin.ext hn)
theorem colArr_apply (c : Dev nD) (i : S32x1x2048.Idx) (b : Fin 32) (q : Fin 2048) (hb : (i 0).val = b.val) (hq : (i 2).val = q.val) :
    colArr m c i = colMin (cloudX m c) (cloudY m c) b q := by
  unfold colArr
  exact congrArg₂ (colMin (cloudX m c) (cloudY m c)) (Fin.ext hb) (Fin.ext hq)

/-- The extents of the two output blocks at every point: neither window is cut. -/
theorem xsize_row : ∀ t : Fin cfg0.N, win0_2.xsize (grid0.coords t) 0 = 1 ∧ win0_2.xsize (grid0.coords t) 1 = 256 ∧ win0_2.xsize (grid0.coords t) 2 = 1 :=
  (by decide +kernel : ∀ t : Fin grid0.N, win0_2.xsize (grid0.coords t) 0 = 1 ∧ win0_2.xsize (grid0.coords t) 1 = 256 ∧ win0_2.xsize (grid0.coords t) 2 = 1)
theorem xsize_col : ∀ t : Fin cfg0.N, win0_3.xsize (grid0.coords t) 0 = 1 ∧ win0_3.xsize (grid0.coords t) 1 = 1 ∧ win0_3.xsize (grid0.coords t) 2 = 2048 :=
  (by decide +kernel : ∀ t : Fin grid0.N, win0_3.xsize (grid0.coords t) 0 = 1 ∧ win0_3.xsize (grid0.coords t) 1 = 1 ∧ win0_3.xsize (grid0.coords t) 2 = 2048)

/-! ## The row minima -/

/-- What point t leaves for write-back in the row-minimum buffer, at y, is the row-minimum array where block t puts y. -/
theorem flushed_row_at (c : Dev nD) (t : Fin cfg0.N) (y : S1x256x1.Idx) :
    k0_pay3 (F := Ideal) (aBlk m c t) (bBlk m c t) y = rowArr m c (((cfg0.win 2).blk t).view.emb y) := by
  obtain ⟨e0, e1, e2⟩ := idx_row t
  obtain ⟨u, r, u', rfl⟩ : ∃ (u : Fin 1) (r : Fin 256) (u' : Fin 1), y = ix3 u r u' := ⟨y 0, y 1, y 2, eq_ix3 y⟩
  rw [tileRow_at]
  refine (rowArr_apply m c _ (batchOf t) (rowOf t r) ?_ ?_).symm
  · show win0_2.index t 0 * 1 + 1 * u.val = t.val / 8
    rw [e0]; have := u.isLt; omega
  · show win0_2.index t 1 * 256 + 1 * r.val = 256 * (t.val % 8) + r.val
    rw [e1]; omega

theorem flushed_row (c : Dev nD) (t : Fin cfg0.N) (hf : (cfg0.win 2).flush t = true) :
    (dats m 0 c).flushed 2 t = ((cfg0.win 2).blk t).view.read (Elt Ideal) (rowArr m c) := by
  show (cfg0.win 2).cut (grid0.coords t) ((dats m 0 c).after 2 t) = _
  rw [after_row]
  funext y
  rw [View.read_apply]
  exact flushed_row_at m c t y

theorem cover_row (c : Dev nD) (i : S32x2048x1.Idx) :
    ∃ t : Fin cfg0.N, (cfg0.win 2).flush t = true ∧ i ∈ ((cfg0.win 2).blk t).view.set := by
  have h0 : (i 0).val < 32 := (i 0).isLt
  have h1 : (i 1).val < 2048 := (i 1).isLt
  have h2 : (i 2).val < 1 := (i 2).isLt
  obtain ⟨t, ht⟩ : ∃ t : Fin cfg0.N, t.val = 8 * (i 0).val + (i 1).val / 256 :=
    ⟨⟨8 * (i 0).val + (i 1).val / 256, by have : cfg0.N = 256 := N_0; omega⟩, rfl⟩
  refine ⟨t, flush0_2 t, ?_⟩
  obtain ⟨e0, e1, e2⟩ := idx_row t
  obtain ⟨s0, s1, s2⟩ := xsize_row t
  show i ∈ ((View.whole main_v1_0).slice (win0_2.rect t)).set
  rw [View.set_slice_whole, Rect.mem_set_unit]
  intro a
  match a with
  | ⟨0, _⟩ =>
    show win0_2.index t 0 * 1 ≤ (i 0 : ℕ) ∧ (i 0 : ℕ) < win0_2.index t 0 * 1 + win0_2.xsize (grid0.coords t) 0
    rw [e0, s0]; omega
  | ⟨1, _⟩ =>
    show win0_2.index t 1 * 256 ≤ (i 1 : ℕ) ∧ (i 1 : ℕ) < win0_2.index t 1 * 256 + win0_2.xsize (grid0.coords t) 1
    rw [e1, s1]; omega
  | ⟨2, _⟩ =>
    show win0_2.index t 2 * 1 ≤ (i 2 : ℕ) ∧ (i 2 : ℕ) < win0_2.index t 2 * 1 + win0_2.xsize (grid0.coords t) 2
    rw [e2, s2]; omega

/-- After the run the first result array of the region holds the row minima. -/
theorem final_row (c : Dev nD) : (dats m 0 c).arrAt 2 cfg0.N = rowArr m c :=
  (dats m 0 c).arrAt_eq_of_cover 2 (rowArr m c) (flushed_row m c) (fun i => cover_row c i)

/-! ## The column minima -/

theorem flushed_col_at (c : Dev nD) (t : Fin cfg0.N) (h7 : t.val % 8 = 7) (y : S1x1x2048.Idx) :
    k0_pay1 (F := Ideal) (colAcc m c t.val t.isLt) y = colArr m c (((cfg0.win 3).blk t).view.emb y) := by
  obtain ⟨e0, e1, e2⟩ := idx_col t
  obtain ⟨u, u', q, rfl⟩ : ∃ (u : Fin 1) (u' : Fin 1) (q : Fin 2048), y = ix3 u u' q := ⟨y 0, y 1, y 2, eq_ix3 y⟩
  obtain rfl : u' = 0 := Fin.ext (by have := u'.isLt; omega)
  rw [pay1_apply, colAcc_last m c t h7 q]
  refine (colArr_apply m c _ (batchOf t) q ?_ ?_).symm
  · show win0_3.index t 0 * 1 + 1 * u.val = t.val / 8
    rw [e0]; have := u.isLt; omega
  · show win0_3.index t 2 * 2048 + 1 * q.val = q.val
    rw [e2]; omega

theorem flushed_col (c : Dev nD) (t : Fin cfg0.N) (hf : (cfg0.win 3).flush t = true) :
    (dats m 0 c).flushed 3 t = ((cfg0.win 3).blk t).view.read (Elt Ideal) (colArr m c) := by
  have h7 : t.val % 8 = 7 := (flush0_3 t).mp hf
  show (cfg0.win 3).cut (grid0.coords t) ((dats m 0 c).after 3 t) = _
  rw [after_col]
  funext y
  rw [View.read_apply]
  exact flushed_col_at m c t h7 y

theorem cover_col (c : Dev nD) (i : S32x1x2048.Idx) :
    ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 2048 := (i 2).isLt
  obtain ⟨t, ht⟩ : ∃ t : Fin cfg0.N, t.val = 8 * (i 0).val + 7 :=
    ⟨⟨8 * (i 0).val + 7, by have : cfg0.N = 256 := N_0; omega⟩, rfl⟩
  refine ⟨t, (flush0_3 t).mpr (by omega), ?_⟩
  obtain ⟨e0, e1, e2⟩ := idx_col t
  obtain ⟨s0, s1, s2⟩ := xsize_col t
  show i ∈ ((View.whole main_v1_1).slice (win0_3.rect t)).set
  rw [View.set_slice_whole, Rect.mem_set_unit]
  intro a
  match a with
  | ⟨0, _⟩ =>
    show win0_3.index t 0 * 1 ≤ (i 0 : ℕ) ∧ (i 0 : ℕ) < win0_3.index t 0 * 1 + win0_3.xsize (grid0.coords t) 0
    rw [e0, s0]; omega
  | ⟨1, _⟩ =>
    show win0_3.index t 1 * 1 ≤ (i 1 : ℕ) ∧ (i 1 : ℕ) < win0_3.index t 1 * 1 + win0_3.xsize (grid0.coords t) 1
    rw [e1, s1]; omega
  | ⟨2, _⟩ =>
    show win0_3.index t 2 * 2048 ≤ (i 2 : ℕ) ∧ (i 2 : ℕ) < win0_3.index t 2 * 2048 + win0_3.xsize (grid0.coords t) 2
    rw [e2, s2]; omega

/-- After the run the second result array of the region holds the column minima. -/
theorem final_col (c : Dev nD) : (dats m 0 c).arrAt 3 cfg0.N = colArr m c :=
  (dats m 0 c).arrAt_eq_of_cover 3 (colArr m c) (flushed_col m c) (fun i => cover_col c i)

end Cert.KernelIdeal.Tile

end
-- ==== Proof.RefValue.lean ====
/-
  The reference's two nearest-neighbour stages read entry by entry. The reference forms the whole 32 × 2048 × 2048
  array of squared distances: entry (b, n, q) is (∑ₖ x·x + ∑ₖ y·y) − 2 · ∑ₖ x·y over the 3 coordinates, the two
  squared norms host sums from zero, spread along the missing axis, the cross term a batched product that
  contracts the coordinate axis of both clouds. Its minimum over the last axis, from +∞, is the row minimum; its
  minimum over the middle axis the column minimum.
-/
import proofs.«143655_j62749472194941_1_alg».proof.Proof.Gen.ReferenceIdeal.Read
import proofs.«143655_j62749472194941_1_alg».proof.Proof.Dist
import Idealize.ShloMosaic.PureOps.Reduce

noncomputable section

open scoped BigOperators

namespace Cert.ReferenceIdeal.RefValue

open Cert.ReferenceIdeal Cert.ReferenceIdeal.Gen Cert.ReferenceIdeal.Read Cert.Chamfer
open Idealize.ShloMosaic Idealize.ShloMosaic.ValueIdx

/-- The array of squared distances at (b, n, q). -/
theorem sqStage_apply (x y : Cloud) (b : Fin 32) (n q : Fin 2048) :
    val_main_v12 (F := Ideal) x y (ix3 b n q) = sq x y b n q := by
  have hA : ∀ k : Fin 3, idx_main_v1 (idx_main_v5 (idx_main_v7 (ix3 b n q))) k = ix3 b n k := fun k =>
    funext fun a => Fin.ext (by match a with | ⟨0, _⟩ => rfl | ⟨1, _⟩ => rfl | ⟨2, _⟩ => rfl)
  have hB : ∀ k : Fin 3, idx_main_v3 (idx_main_v6 (idx_main_v8 (ix3 b n q))) k = ix3 b q k := fun k =>
    funext fun a => Fin.ext (by match a with | ⟨0, _⟩ => rfl | ⟨1, _⟩ => rfl | ⟨2, _⟩ => rfl)
  have hL : ∀ k : Fin 3, lidx_main_v4 (ix3 b n q) k = ix3 b n k := fun k =>
    funext fun a => Fin.ext (by match a with | ⟨0, _⟩ => rfl | ⟨1, _⟩ => rfl | ⟨2, _⟩ => rfl)
  have hR : ∀ k : Fin 3, ridx_main_v4 (ix3 b n q) k = ix3 b q k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v5_apply, val_main_v1_apply,
    val_main_v8_apply, val_main_v6_apply, val_main_v3_apply, val_main_v10_apply, val_main_v4_apply]
  simp only [val_main_v0_apply, val_main_v2_apply, val_main_cst_apply, val_main_cst_0_apply, val_main_cst_1_apply,
    Ideal.subf_def, Ideal.addf_def, Ideal.mulf_def, Ideal.ofBits_def, Ideal.ofBits_zero_f32, zero_add, hA, hB, hL, hR]
  rfl

/-- The minimum over the last axis is the row minimum. -/
theorem rowStage_apply (x y : Cloud) (b : Fin 32) (n : Fin 2048) :
    val_main_v13 (F := Ideal) x y (ix2 b n) = rowMin x y b n := by
  unfold val_main_v13
  refine (Host.reduce_eq_fold_single FloatOps.minimumf _ _ reducesTo_S32x2048x2048_S32x2048_d2 (by decide) h_S_ (ix2 b n)).trans ?_
  unfold rowMin
  refine congrArg (fun g => (Finset.univ : Finset (Fin 2048)).fold min top g) (funext fun q => ?_)
  refine Eq.trans (congrArg (val_main_v12 (F := Ideal) x y) (funext fun a => Fin.ext ?_)) (sqStage_apply x y b n q)
  match a with | ⟨0, _⟩ => rfl | ⟨1, _⟩ => rfl | ⟨2, _⟩ => rfl

/-- The minimum over the middle axis is the column minimum. -/
theorem colStage_apply (x y : Cloud) (b : Fin 32) (q : Fin 2048) :
    val_main_v14 (F := Ideal) x y (ix2 b q) = colMin x y b q := by
  unfold val_main_v14
  refine (Host.reduce_eq_fold_single FloatOps.minimumf _ _ reducesTo_S32x2048x2048_S32x2048_d1 (by decide) h_S_ (ix2 b q)).trans ?_
  unfold colMin
  refine congrArg (fun g => (Finset.univ : Finset (Fin 2048)).fold min top g) (funext fun n => ?_)
  refine Eq.trans (congrArg (val_main_v12 (F := Ideal) x y) (funext fun a => Fin.ext ?_)) (sqStage_apply x y b n q)
  match a with | ⟨0, _⟩ => rfl | ⟨1, _⟩ => rfl | ⟨2, _⟩ => rfl

end Cert.ReferenceIdeal.RefValue

end
-- ==== Proof.KI.Tail.lean ====
/-
  The host lines after the region, read on the region's arrays. They drop the unit axis of each result array, take
  the two means (a sum from zero over all 32 · 2048 entries, divided by 65536), add them, and form the
  classification loss and the total from the logits and the labels. With the arrays at the row and column minima,
  the two reshaped arrays are entry for entry the reference's two min stages, so the first result is the
  reference's; the classification loss is the same text over the same two arguments; the total is
  5 · the first plus 1 · the second on both sides.
-/
import proofs.«143655_j62749472194941_1_alg».proof.Proof.KI.Arrays
import proofs.«143655_j62749472194941_1_alg».proof.Proof.KI.Frame
import proofs.«143655_j62749472194941_1_alg».proof.Proof.RefValue
import proofs.«143655_j62749472194941_1_alg».proof.Proof.LibLaneFolds
import Idealize.ShloMosaic.Lib.StableHlo.Run

set_option maxRecDepth 16384

noncomputable section

namespace Cert.KernelIdeal.Tile

open Cert.KernelIdeal Cert.KernelIdeal.Gen Cert.Chamfer Cert.Lib.LaneFolds
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ)

/-- The buffers as the region leaves them: its arrays at what the run wrote, everything else as it found it. -/
abbrev afterRegion (c : Dev nD) : Valuation τ sig (Elt Ideal) :=
  Pipeline.withArrays (cfgs 0).spec c (V0 m c) (fun w => (dats m 0 c).arrAt w (cfgs 0).N)

theorem afterRegion_rows (c : Dev nD) : afterRegion m c (Proc.devRef .tc main_v1_0) = rowArr m c :=
  (Pipeline.withArrays_arr spec0 launch0.win.arr_inj c (V0 m c) _ (2 : Fin 4)).trans (final_row m c)
theorem afterRegion_cols (c : Dev nD) : afterRegion m c (Proc.devRef .tc main_v1_1) = colArr m c :=
  (Pipeline.withArrays_arr spec0 launch0.win.arr_inj c (V0 m c) _ (3 : Fin 4)).trans (final_col m c)
theorem afterRegion_logits (c : Dev nD) : Pipeline.withArrays (cfgs 0).spec c (V0 m c) (fun w => (dats m 0 c).arrAt w (cfgs 0).N) (Proc.devRef .tc main_arg2) = m ((c : Thread nD τ).loc main_arg2) :=
  (Pipeline.withArrays_of_ne spec0 c (V0 m c) _ main_arg2 (by decide)).trans (V_main_arg2 m c)
theorem afterRegion_labels (c : Dev nD) : Pipeline.withArrays (cfgs 0).spec c (V0 m c) (fun w => (dats m 0 c).arrAt w (cfgs 0).N) (Proc.devRef .tc main_arg3) = m ((c : Thread nD τ).loc main_arg3) :=
  (Pipeline.withArrays_of_ne spec0 c (V0 m c) _ main_arg3 (by decide)).trans (V_main_arg3 m c)

/-- The first result array with its unit axis dropped is the reference's row-minimum stage; -/
theorem rows_eq (c : Dev nD) :
    shapeCast S32x2048 (afterRegion m c (Proc.devRef .tc main_v1_0)) shapeCasts_S32x2048x1_S32x2048
      = Cert.ReferenceIdeal.Read.val_main_v13 (F := Ideal) (cloudX m c) (cloudY m c) := by
  funext i
  obtain ⟨b, n, rfl⟩ : ∃ (b : Fin 32) (n : Fin 2048), i = ix2 b n := ⟨i 0, i 1, eq_ix2 i⟩
  rw [afterRegion_rows]
  refine (dropLast_apply _ _ b n).trans ?_
  rw [rowArr_apply m c _ b n rfl rfl]
  exact (Cert.ReferenceIdeal.RefValue.rowStage_apply _ _ b n).symm

/-- the second, its column-minimum stage. -/
theorem cols_eq (c : Dev nD) :
    shapeCast S32x2048 (afterRegion m c (Proc.devRef .tc main_v1_1)) shapeCasts_S32x1x2048_S32x2048
      = Cert.ReferenceIdeal.Read.val_main_v14 (F := Ideal) (cloudX m c) (cloudY m c) := by
  funext i
  obtain ⟨b, q, rfl⟩ : ∃ (b : Fin 32) (q : Fin 2048), i = ix2 b q := ⟨i 0, i 1, eq_ix2 i⟩
  rw [afterRegion_cols]
  refine (dropMid_apply _ _ b q).trans ?_
  rw [colArr_apply m c _ b q rfl rfl]
  exact (Cert.ReferenceIdeal.RefValue.colStage_apply _ _ b q).symm

open Cert.ReferenceIdeal.Read in
set_option maxHeartbeats 16000000 in
/-- THE FIRST RESULT (the sum of the two means) is the reference's. -/
theorem cd_value (c : Dev nD) :
    Pipeline.afterTail₀ cfgs (dats m) 0 (V0 m) [hostOps1, hostOps1_1, hostOps1_2, hostOps1_3, hostOps1_4] c main_v8
      = val_main_v19 (F := Ideal) (cloudX m c) (cloudY m c) := by
  unfold Pipeline.afterTail₀
  simp only [hostOps1, hostOps1_1, hostOps1_2, hostOps1_3, hostOps1_4, List.flatten_cons, List.flatten_nil, List.append_nil, List.cons_append, List.nil_append]
  after_results_simp
  unfold val_main_v19 val_main_v16 val_main_v18 val_main_v15 val_main_v17
  refine congrArg₂ addf (congrArg (fun z => Host.divf z _) (congrArg (fun f => Host.reduceAdd f _ _ _) ?_))
      (congrArg (fun z => Host.divf z _) (congrArg (fun f => Host.reduceAdd f _ _ _) ?_))
  · exact rows_eq m c
  · exact cols_eq m c

open Cert.ReferenceIdeal.Read in
set_option maxHeartbeats 16000000 in
/-- THE CLASSIFICATION LOSS is the same text over the same logits and labels. -/
theorem cls_value (c : Dev nD) :
    Pipeline.afterTail₀ cfgs (dats m) 0 (V0 m) [hostOps1, hostOps1_1, hostOps1_2, hostOps1_3, hostOps1_4] c main_v15
      = val_main_v26 (F := Ideal) (m ((c : Thread nD τ).loc main_arg2)) (m ((c : Thread nD τ).loc main_arg3)) := by
  unfold Pipeline.afterTail₀
  simp only [hostOps1, hostOps1_1, hostOps1_2, hostOps1_3, hostOps1_4, List.flatten_cons, List.flatten_nil, List.append_nil, List.cons_append, List.nil_append]
  after_results_simp
  rw [afterRegion_logits, afterRegion_labels]
  exact val_main_v26_eq _ _

open Cert.ReferenceIdeal.Read in
set_option maxHeartbeats 16000000 in
/-- THE TOTAL: five times the first result plus once the classification loss, on both sides. -/
theorem total_value (c : Dev nD) :
    Pipeline.afterTail₀ cfgs (dats m) 0 (V0 m) [hostOps1, hostOps1_1, hostOps1_2, hostOps1_3, hostOps1_4] c main_v18
      = val_main_v29 (F := Ideal) (cloudX m c) (cloudY m c) (m ((c : Thread nD τ).loc main_arg2)) (m ((c : Thread nD τ).loc main_arg3)) := by
  unfold Pipeline.afterTail₀
  simp only [hostOps1, hostOps1_1, hostOps1_2, hostOps1_3, hostOps1_4, List.flatten_cons, List.flatten_nil, List.append_nil, List.cons_append, List.nil_append]
  after_results_simp
  unfold val_main_v29 val_main_v27 val_main_v28
  refine congrArg₂ addf (congrArg (mulf _) ?_) (congrArg (mulf _) ?_)
  · unfold val_main_v19 val_main_v16 val_main_v18 val_main_v15 val_main_v17
    refine congrArg₂ addf (congrArg (fun z => Host.divf z _) (congrArg (fun f => Host.reduceAdd f _ _ _) ?_))
      (congrArg (fun z => Host.divf z _) (congrArg (fun f => Host.reduceAdd f _ _ _) ?_))
    · exact rows_eq m c
    · exact cols_eq m c
  · rw [afterRegion_logits, afterRegion_labels]
    exact val_main_v26_eq _ _

end Cert.KernelIdeal.Tile

end
-- ==== Proof.lean ====
/-
  A point-cloud loss: 5 · (mean nearest squared distance from the first cloud to the second + the same from the
  second to the first) + a cross-entropy of 32 six-way logits, with the middle term and the cross-entropy also returned.

  The kernel never forms the 32 × 2048 × 2048 array of squared distances. It walks 32 batches × 8 row tiles; at each
  point it forms one 256 × 2048 tile as (|x|² + |y|²) − 2 x·y, writes the tile's row minima, and folds its column
  minima into a scratch row kept across the 8 tiles of a batch, copied out on the last one. The reference forms the
  whole array with the same formula and takes the two minima by one reduction each. Over the extended reals the two
  agree entry by entry: the formula is the same; a change of float format is the identity; a minimum over 2048 rows
  is the minimum of the minima over 8 groups of 256, which is the universal property of min (no finiteness is used).
  The host lines that follow (the means, the cross-entropy, the weighted sum) are the same text in both programs,
  applied to equal arrays.

  Frames: the word-level kernel and the idealized kernel run the same body, proved once for any float instance (the
  scratch row's contents are carried by the loop invariant); the reference's frame is its run with the results dropped.
  The ideal pass rewrote nothing, so the idealization claim is trivial.
-/
import proofs.«143655_j62749472194941_1_alg».proof.Defs
import proofs.«143655_j62749472194941_1_alg».proof.Proof.Gen.Kernel
import proofs.«143655_j62749472194941_1_alg».proof.Proof.Gen.KernelIdeal
import proofs.«143655_j62749472194941_1_alg».proof.Proof.Gen.ReferenceIdeal
import proofs.«143655_j62749472194941_1_alg».proof.Proof.Gen.Pre_finite_inputs
import proofs.«143655_j62749472194941_1_alg».proof.Proof.Gen.ReferenceIdeal.Run
import proofs.«143655_j62749472194941_1_alg».proof.Proof.Gen.ReferenceIdeal.Read
import proofs.«143655_j62749472194941_1_alg».proof.Proof.K.Frame
import proofs.«143655_j62749472194941_1_alg».proof.Proof.KI.Frame
import proofs.«143655_j62749472194941_1_alg».proof.Proof.KI.Tail
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Tile.frame (F := Bits) m ρ
theorem frame_ki : Cert.frame_KernelIdeal := fun m ρ _ => Cert.KernelIdeal.Tile.frame (F := Ideal) m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

open Cert.KernelIdeal Cert.KernelIdeal.Gen Cert.KernelIdeal.Tile in
/-- The idealized kernel's run with its three results named: each is the reference's stage function of the
    arguments (the total, the sum of the two means, the classification loss). -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v18) = Cert.ReferenceIdeal.Read.val_main_v29 (F := Ideal) (cloudX m c) (cloudY m c) (m ((c : Thread nD τ).loc main_arg2)) (m ((c : Thread nD τ).loc main_arg3))
        ∧ r.2.mem ((c.tc : Thread nD τ).loc main_v8) = Cert.ReferenceIdeal.Read.val_main_v19 (F := Ideal) (cloudX m c) (cloudY m c)
        ∧ r.2.mem ((c.tc : Thread nD τ).loc main_v15) = Cert.ReferenceIdeal.Read.val_main_v26 (F := Ideal) (m ((c : Thread nD τ).loc main_arg2)) (m ((c : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c =>
    ⟨((h c).2 main_v18 (Pipeline.mem_restRefs_of main_v18 (by decide) (by decide))).trans (total_value m c),
     ((h c).2 main_v8 (Pipeline.mem_restRefs_of main_v8 (by decide) (by decide))).trans (cd_value m c),
     ((h c).2 main_v15 (Pipeline.mem_restRefs_of main_v15 (by decide) (by decide))).trans (cls_value m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main (F := Ideal) m ρ)

/-- From memories that agree on the arguments both idealized programs end with the same three results. -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.ReferenceIdeal.Value.run (F := Ideal) m' ρ')
  obtain ⟨h29, h19, h26, a0, a1, a2, a3⟩ := h c
  obtain ⟨e0, e1, e2, e3⟩ := hagree c
  refine ⟨?_, ?_, ?_, a0, a1, a2, a3⟩
  · rw [h29, Cert.ReferenceIdeal.Read.val_main_v29_eq, e0, e1, e2, e3]
  · rw [h19, e0, e1]; exact Cert.ReferenceIdeal.Read.val_main_v19_eq _ _
  · rw [h26, e2, e3]; exact Cert.ReferenceIdeal.Read.val_main_v26_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
